-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S15000 : Shape := ⟨1, ![15000]⟩
abbrev S15000x256 : Shape := ⟨2, ![15000, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S15000x256 : S_.BroadcastsInDim S15000x256 (![] : Fin 0 → Fin S15000x256.rank)
  reducesTo_S15000x256_S_d0_1 : S15000x256.ReducesTo [0, 1] S_
  bcast_S_S15000 : S_.BroadcastsInDim S15000 (![] : Fin 0 → Fin S15000.rank)
  reducesTo_S15000_S_d0 : S15000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4096x256 .f32) (main_arg1 : IVec S4096 32) (main_arg2 : IVec S15000 32) (main_arg3 : FVec F S15000x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S15000x256 .f32 := Host.absf main_arg3
  let main_cst_0 : FVec F S_ .f32 := constant S_ .f32 0x7F800000#32
  let main_v5 : FVec F S15000x256 .f32 := broadcastInDim S15000x256 ![] bcast_S_S15000x256 main_cst_0
  let main_v6 : IVec S15000x256 1 := cmpf .olt main_v4 main_v5
  let main_c_1 : IVec S_ 1 := constantI S_ 1 1#1
  let main_v7 : IVec S_ 1 := (fun x v => Host.reduce IntOp.andi x v reducesTo_S15000x256_S_d0_1 h_S_) main_v6 main_c_1
  let main_v8 : IVec S_ 1 := andi main_v3 main_v7
  let main_c_2 : IVec S_ 32 := constantI S_ 32 4294952296#32
  let main_v9 : IVec S15000 32 := broadcastInDim S15000 ![] bcast_S_S15000 main_c_2
  let main_v10 : IVec S15000 1 := cmpi .sge main_arg2 main_v9
  let main_c_3 : IVec S_ 1 := constantI S_ 1 1#1
  let main_v11 : IVec S_ 1 := (fun x v => Host.reduce IntOp.andi x v reducesTo_S15000_S_d0 h_S_) main_v10 main_c_3
  let main_v12 : IVec S_ 1 := andi main_v8 main_v11
  let main_c_4 : IVec S_ 32 := constantI S_ 32 15000#32
  let main_v13 : IVec S15000 32 := broadcastInDim S15000 ![] bcast_S_S15000 main_c_4
  let main_v14 : IVec S15000 1 := cmpi .slt main_arg2 main_v13
  let main_c_5 : IVec S_ 1 := constantI S_ 1 1#1
  let main_v15 : IVec S_ 1 := (fun x v => Host.reduce IntOp.andi x v reducesTo_S15000_S_d0 h_S_) main_v14 main_c_5
  fn_part1 (F := F) main_v12 main_v15
-- ==== Kernel.lean ====
abbrev S4096x256 : Shape := ⟨2, ![4096, 256]⟩
abbrev S4096 : Shape := ⟨1, ![4096]⟩
abbrev S15000 : Shape := ⟨1, ![15000]⟩
abbrev S15000x256 : Shape := ⟨2, ![15000, 256]⟩
abbrev S4096x1 : Shape := ⟨2, ![4096, 1]⟩
abbrev S2048x256 : Shape := ⟨2, ![2048, 256]⟩
abbrev S1000x256 : Shape := ⟨2, ![1000, 256]⟩
abbrev S2048x1 : Shape := ⟨2, ![2048, 1]⟩
abbrev S2048x1000 : Shape := ⟨2, ![2048, 1000]⟩
abbrev S2048 : Shape := ⟨1, ![2048]⟩
abbrev S_ : Shape := ⟨0, ![]⟩

abbrev nBuf : Space → Nat
  | .hbm => 58
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S15000, .i32⟩
  | .hbm, ⟨3, _⟩ => ⟨S15000x256, .f32⟩
  | .hbm, ⟨4, _⟩ => ⟨S4096x1, .f32⟩
  | .hbm, ⟨5, _⟩ => ⟨S4096, .f32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096x256, .f32⟩
  | .hbm, ⟨34, _⟩ => ⟨S4096x256, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S4096, .i1⟩
  | .hbm, ⟨45, _⟩ => ⟨S4096, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S2048x256, .f32⟩
  | .local _ .vmem, ⟨1, _⟩ => ⟨S1000x256, .f32⟩
  | .local _ .vmem, ⟨2, _⟩ => ⟨S1000x256, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_c_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_c_9 : Ref sig .tc := ⟨.hbm, 48, rfl⟩
abbrev main_v31 : Ref sig .tc := ⟨.hbm, 49, rfl⟩
abbrev main_cst_10 : Ref sig .tc := ⟨.hbm, 50, rfl⟩
abbrev main_call1_v0 : Ref sig .tc := ⟨.hbm, 51, rfl⟩
abbrev main_call1_v1 : Ref sig .tc := ⟨.hbm, 52, rfl⟩
abbrev main_v32 : Ref sig .tc := ⟨.hbm, 53, rfl⟩
abbrev main_cst_11 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 15], ![false, false]⟩

def k0_cond2 (i : grid0.Coords) : BitVec 1 :=
  let arg1 : BitVec 32 := BitVec.ofNat 32 (i 1).val
  let c14_i32 : BitVec 32 := 14#32
  let v31 : BitVec 1 := Scalar.cmpi .eq arg1 c14_i32
  let v32 : BitVec 32 := Scalar.extui v31
  let c0_i32_17 : BitVec 32 := 0#32
  let v33 : BitVec 1 := Scalar.cmpi .ne v32 c0_i32_17
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S1000x256_S1000x256_0_0 : ∀ a, (![0, 0] : Fin 2 → Nat) a + S1000x256.size a ≤ S1000x256.size a
  h_S1000x256 : 0 < S1000x256.numel
  reduces_S2048x1000_S2048 : S2048x1000.Reduces [1] S2048
  shapeCasts_S2048_S2048x1 : S2048.ShapeCasts S2048x1
  broadcasts_S2048x1_S2048x1000 : S2048x1.Broadcasts S2048x1000
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  reducesTo_S4096x256_S4096_d1 : S4096x256.ReducesTo [1] S4096
  h_S_ : 0 < S_.numel
  natLt_1_32 : 1 < 32
  reducesTo_S4096_S_d0 : S4096.ReducesTo [0] S_
  dot_S2048x256_S1000x256_S2048x1000_1_1_0_0_n_n_wf : DotDims.WF S2048x256 S1000x256 S2048x1000 [1] [1] [0] [0] [] []
  gather_S15000_S4096x1_S4096_n_0_n_n_0_1_1_wf : GatherDims.WF S15000 S4096x1 S4096 [] [0] [] [0] [] 1 ![1]
  gather_S15000x256_S4096x1_S4096x256_1_0_n_n_0_1_1256_wf : GatherDims.WF S15000x256 S4096x1 S4096x256 [1] [0] [] [0] [] 1 ![1, 256]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x256.size a
  hwx0_0 : ∀ i : grid0.Coords, EltTy.bits .f32 = 32 ∨ (Rect.block (s := S4096x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S15000x256.size a
  hwx0_1 : ∀ i : grid0.Coords, EltTy.bits .f32 = 32 ∨ (Rect.block (s := S15000x256) S1000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)

variable [Facts₀]

def dot_S2048x256_S1000x256_S2048x1000_1_1_0_0_n_n : DotDims S2048x256 S1000x256 S2048x1000 where
  lhsContracting := [1]
  rhsContracting := [1]
  lhsNonContracting := [0]
  rhsNonContracting := [0]
  lhsBatch := []
  rhsBatch := []
  wf := dot_S2048x256_S1000x256_S2048x1000_1_1_0_0_n_n_wf
def gather_S15000_S4096x1_S4096_n_0_n_n_0_1_1 : GatherDims S15000 S4096x1 S4096 where
  offsetDims := []
  collapsedSliceDims := [0]
  operandBatchingDims := []
  startIndicesBatchingDims := []
  startIndexMap := [0]
  indexVectorDim := 1
  sliceSizes := ![1]
  wf := gather_S15000_S4096x1_S4096_n_0_n_n_0_1_1_wf
def gather_S15000x256_S4096x1_S4096x256_1_0_n_n_0_1_1256 : GatherDims S15000x256 S4096x1 S4096x256 where
  offsetDims := [1]
  collapsedSliceDims := [0]
  operandBatchingDims := []
  startIndicesBatchingDims := []
  startIndexMap := [0]
  indexVectorDim := 1
  sliceSizes := ![1, 256]
  wf := gather_S15000x256_S4096x1_S4096x256_1_0_n_n_0_1_1256_wf

abbrev win0_0 : Pipeline.Window sig grid0 :=
  Pipeline.Window.ofSpec (Memref.whole main_arg0) S2048x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S4096 : Shape := ⟨1, ![4096]⟩
abbrev S15000 : Shape := ⟨1, ![15000]⟩
abbrev S15000x256 : Shape := ⟨2, ![15000, 256]⟩
abbrev S_ : Shape := ⟨0, ![]⟩
abbrev S4096x1 : Shape := ⟨2, ![4096, 1]⟩
abbrev S256x15000 : Shape := ⟨2, ![256, 15000]⟩
abbrev S4096x15000 : Shape := ⟨2, ![4096, 15000]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 85
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S15000, .i32⟩
  | .hbm, ⟨3, _⟩ => ⟨S15000x256, .f32⟩
  | .hbm, ⟨4, _⟩ => ⟨S_, .i32⟩
  | .hbm, ⟨5, _⟩ => ⟨S4096, .i32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S4096x1, .i32⟩
  | .hbm, ⟨22, _⟩ => ⟨S4096, .i32⟩
  | .hbm, ⟨23, _⟩ => ⟨S256x15000, .f32⟩
  | .hbm, ⟨24, _⟩ => ⟨S4096x15000, .f32⟩
  | .hbm, ⟨25, _⟩ => ⟨S_, .f32⟩
  | .hbm, ⟨26, _⟩ => ⟨S4096x15000, .f32⟩
  | .hbm, ⟨27, _⟩ => ⟨S4096x15000, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x1, .f32⟩
  | .hbm, ⟨34, _⟩ => ⟨S4096x15000, .f32⟩
  | .hbm, ⟨35, _⟩ => ⟨S4096x15000, .f32⟩
  | .hbm, ⟨36, _⟩ => ⟨S4096x15000, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1, .f32⟩
  | .hbm, ⟨41, _⟩ => ⟨S4096x15000, .f32⟩
  | .hbm, ⟨42, _⟩ => ⟨S4096x15000, .f32⟩
  | .hbm, ⟨43, _⟩ => ⟨S4096x1, .i32⟩
  | .hbm, ⟨44, _⟩ => ⟨S_, .i32⟩
  | .hbm, ⟨45, _⟩ => ⟨S4096x1, .i32⟩
  | .hbm, ⟨46, _⟩ => ⟨S4096x1, .i1⟩
  | .hbm, ⟨47, _⟩ => ⟨S_, .i32⟩
  | .hbm, ⟨48, _⟩ => ⟨S4096x1, .i32⟩
  | .hbm, ⟨49, _⟩ => ⟨S4096x1, .i32⟩
  | .hbm, ⟨50, _⟩ => ⟨S4096x1, .i32⟩
  | .hbm, ⟨51, _⟩ => ⟨S4096x1x1, .i32⟩
  | .hbm, ⟨52, _⟩ => ⟨S1, .i32⟩
  | .hbm, ⟨53, _⟩ => ⟨S_, .i32⟩
  | .hbm, ⟨54, _⟩ => ⟨S4096x1x1, .i32⟩
  | .hbm, ⟨55, _⟩ => ⟨S4096x1x1, .i1⟩
  | .hbm, ⟨56, _⟩ => ⟨S1x1x1, .i32⟩
  | .hbm, ⟨57, _⟩ => ⟨S4096x1x1, .i32⟩
  | .hbm, ⟨58, _⟩ => ⟨S4096x1x1, .i1⟩
  | .hbm, ⟨59, _⟩ => ⟨S4096x1x1, .i1⟩
  | .hbm, ⟨60, _⟩ => ⟨S_, .i1⟩
  | .hbm, ⟨61, _⟩ => ⟨S4096x1, .i1⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096, .f32⟩
  | .hbm, ⟨67, _⟩ => ⟨S4096, .f32⟩
  | .hbm, ⟨68, _⟩ => ⟨S_, .i32⟩
  | .hbm, ⟨69, _⟩ => ⟨S4096, .i32⟩
  | .hbm, ⟨70, _⟩ => ⟨S4096, .i1⟩
  | .hbm, ⟨71, _⟩ => ⟨S4096, .i1⟩
  | .hbm, ⟨72, _⟩ => ⟨S4096, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .f32⟩
  | .hbm, ⟨78, _⟩ => ⟨S_, .f32⟩
  | .hbm, ⟨79, _⟩ => ⟨S4096, .f32⟩
  | .hbm, ⟨80, _⟩ => ⟨S4096, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_c_2 : Ref sig .tc := ⟨.hbm, 14, rfl⟩
abbrev main_v5 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_call1_cst : Ref sig .tc := ⟨.hbm, 28, rfl⟩
abbrev main_call1_v0 : Ref sig .tc := ⟨.hbm, 29, rfl⟩
abbrev main_call1_cst_0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_cst_1 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_v16 : Ref sig .tc := ⟨.hbm, 42, rfl⟩
abbrev main_v17 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_cst : Ref sig .tc := ⟨.hbm, 63, rfl⟩
abbrev main_call2_v14 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_c_4 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_c_5 : Ref sig .tc := ⟨.hbm, 73, rfl⟩
abbrev main_v25 : Ref sig .tc := ⟨.hbm, 74, rfl⟩
abbrev main_c_6 : Ref sig .tc := ⟨.hbm, 75, rfl⟩
abbrev main_v26 : Ref sig .tc := ⟨.hbm, 76, rfl⟩
abbrev main_cst_7 : Ref sig .tc := ⟨.hbm, 77, rfl⟩
abbrev main_call3_v0 : Ref sig .tc := ⟨.hbm, 78, rfl⟩
abbrev main_call3_v1 : Ref sig .tc := ⟨.hbm, 79, rfl⟩
abbrev main_v27 : Ref sig .tc := ⟨.hbm, 80, rfl⟩
abbrev main_cst_8 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  transposes_S15000x256_S256x15000_1_0 : S15000x256.Transposes [1, 0] S256x15000
  bcast_S_S4096x15000 : S_.BroadcastsInDim S4096x15000 (![] : Fin 0 → Fin S4096x15000.rank)
  reducesTo_S4096x15000_S4096_d1 : S4096x15000.ReducesTo [1] S4096
  h_S_ : 0 < S_.numel
  bcast_S4096x1_S4096x15000_0_1 : S4096x1.BroadcastsInDim S4096x15000 (![0, 1] : Fin 2 → Fin S4096x15000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  natLt_1_32 : 1 < 32
  reducesTo_S4096_S_d0 : S4096.ReducesTo [0] S_
  gather_S15000_S4096x1_S4096_n_0_n_n_0_1_1_wf : GatherDims.WF S15000 S4096x1 S4096 [] [0] [] [0] [] 1 ![1]
  dot_S4096x256_S256x15000_S4096x15000_1_0_0_1_n_n_wf : DotDims.WF S4096x256 S256x15000 S4096x15000 [1] [0] [0] [1] [] []
  gather_S4096x15000_S4096x1x1_S4096x1_n_1_0_0_1_2_11_wf : GatherDims.WF S4096x15000 S4096x1x1 S4096x1 [] [1] [0] [1] [0] 2 ![1, 1]

variable [Facts₀]

def gather_S15000_S4096x1_S4096_n_0_n_n_0_1_1 : GatherDims S15000 S4096x1 S4096 where
  offsetDims := []
  collapsedSliceDims := [0]
  operandBatchingDims := []
  startIndicesBatchingDims := []
  startIndexMap := [0]
  indexVectorDim := 1
  sliceSizes := ![1]
  wf := gather_S15000_S4096x1_S4096_n_0_n_n_0_1_1_wf
def dot_S4096x256_S256x15000_S4096x15000_1_0_0_1_n_n : DotDims S4096x256 S256x15000 S4096x15000 where
  lhsContracting := [1]
  rhsContracting := [0]
  lhsNonContracting := [0]
  rhsNonContracting := [1]
  lhsBatch := []
  rhsBatch := []
  wf := dot_S4096x256_S256x15000_S4096x15000_1_0_0_1_n_n_wf
def gather_S4096x15000_S4096x1x1_S4096x1_n_1_0_0_1_2_11 : GatherDims S4096x15000 S4096x1x1 S4096x1 where
  offsetDims := []
  collapsedSliceDims := [1]
  operandBatchingDims := [0]
  startIndicesBatchingDims := [0]
  startIndexMap := [1]
  indexVectorDim := 2
  sliceSizes := ![1, 1]
  wf := gather_S4096x15000_S4096x1x1_S4096x1_n_1_0_0_1_2_11_wf

class Facts : Prop extends Facts₀ where

variable [Facts]
-- ==== Proof.KerTail.lean ====
import proofs.«406967_j32916629357083_1_alg».proof.Proof.Gen.KernelIdeal.Frame
import Idealize.ShloMosaic.Lib.StableHlo.Run
import Idealize.ShloMosaic.Lib.Tactic

/-! # The host lines after the kernel's region

After the region the host reshapes the per-row log-sum-exp, finds each row's class (the label buffer read at the row's
sample number, both NumPy-wrapped), takes that class's row of the table, and forms the row's negative log-likelihood
`lse − 30 · ⟨x, row⟩`; the loss is the sum of those over the rows the mask keeps, divided by the number kept (at least 1).
Each stage is named here as a function; the program's result is their composition applied to the arguments and to the
array the region left. -/

set_option maxRecDepth 16384

noncomputable section

open Idealize.ShloMosaic Idealize.ShloMosaic.TcCoe Idealize.SL.Sem Idealize.ShloMosaic.StableHlo

namespace Cert.KernelIdeal.Tail

open Cert.KernelIdeal Cert.KernelIdeal.Gen

variable {F : FTy → Type} [FloatOps F]

/-- A scalar integer constant on every row. -/
abbrev rowsI (v : BitVec 32) : IVec S4096 32 := broadcastInDim S4096 ![] bcast_S_S4096 (constantI S_ 32 v)

/-- The sample number of each row: the row's label minus one. -/
def targets (roi : IVec S4096 32) : IVec S4096 32 := subi roi (rowsI 1#32)
/-- The rows that have a sample (a non-negative sample number). -/
def valid (roi : IVec S4096 32) : IVec S4096 1 := cmpi .sge (targets roi) (rowsI 0#32)
/-- The sample number, `0` on the rows that have none. -/
def safeT (roi : IVec S4096 32) : IVec S4096 32 :=
  select (valid roi) (targets roi) (broadcastInDim S4096 ![] bcast_S_S4096 (id (constantI S_ 32 0#32)))
/-- NumPy's wrap of an index into an axis of extent 15000, on every row. -/
def wrapRows (v : IVec S4096 32) : IVec S4096 32 := select (cmpi .slt v (rowsI 0#32)) (addi v (rowsI 15000#32)) v
/-- A row vector as a one-column index matrix. -/
def col (v : IVec S4096 32) : IVec S4096x1 32 := broadcastInDim S4096x1 ![0] bcast_S4096_S4096x1_0 v
/-- Each row's class: the label buffer at the row's (wrapped) sample number. -/
def label (roi : IVec S4096 32) (labels : IVec S15000 32) : IVec S4096 32 :=
  Host.gather gather_S15000_S4096x1_S4096_n_0_n_n_0_1_1 labels (col (wrapRows (safeT roi)))
/-- The table's row of each row's (wrapped) class. -/
def targetRow (lut : FVec F S15000x256 .f32) (lab : IVec S4096 32) : FVec F S4096x256 .f32 :=
  Host.gather gather_S15000x256_S4096x1_S4096x256_1_0_n_n_0_1_1256 lut (col (wrapRows lab))
/-- Thirty times the inner product of each feature row with its class's table row. -/
def targetLogit (x : FVec F S4096x256 .f32) (lut : FVec F S15000x256 .f32) (lab : IVec S4096 32) : FVec F S4096 .f32 :=
  mulf (Host.reduceAdd (mulf x (targetRow lut lab)) (constant S_ .f32 0x00000000#32) reducesTo_S4096x256_S4096_d1 h_S_)
    (broadcastInDim S4096 ![] bcast_S_S4096 (constant S_ .f32 0x41F00000#32))
/-- Each row's negative log-likelihood: its log-sum-exp minus its class's scaled similarity. -/
def nll (lse : FVec F S4096x1 .f32) (x : FVec F S4096x256 .f32) (lut : FVec F S15000x256 .f32) (lab : IVec S4096 32) :
    FVec F S4096 .f32 :=
  subf (shapeCast S4096 lse shapeCasts_S4096x1_S4096) (targetLogit x lut lab)
/-- The rows the loss keeps: those with a sample whose class is not the ignored one. -/
def mask (roi : IVec S4096 32) (lab : IVec S4096 32) : IVec S4096 1 := andi (valid roi) (cmpi .ne lab (rowsI 5554#32))
/-- The masked mean: the kept rows' values summed, over the number kept or 1. -/
def loss (msk : IVec S4096 1) (v : FVec F S4096 .f32) : FVec F S_ .f32 :=
  Host.divf
    (Host.reduceAdd (select msk v (broadcastInDim S4096 ![] bcast_S_S4096 (id (constant S_ .f32 0x00000000#32))))
      (constant S_ .f32 0x00000000#32) reducesTo_S4096_S_d0 h_S_)
    (sitofp .f32 (maxsi (Host.reduce IntOp.addi (extui 32 msk natLt_1_32) (constantI S_ 32 0#32) reducesTo_S4096_S_d0 h_S_)
      (constantI S_ 32 1#32)))

variable (m : (ℓ : Loc nD τ sig) → Buf (Elt F) ℓ)

/-- What the host lines after the region leave in the result buffer: the loss of the kept rows' negative
    log-likelihoods, the log-sum-exp column being the array the region left. -/
theorem tail_eq (c : Dev nD) :
    Pipeline.afterTail₀ cfgs (dats m) 0 (V0 m) [hostOps1, hostOps1_1, hostOps1_2, hostOps1_3, hostOps1_4] c main_v35
      = loss (F := F) (mask (m ((c : Thread nD τ).loc main_arg1))
            (label (m ((c : Thread nD τ).loc main_arg1)) (m ((c : Thread nD τ).loc main_arg2))))
          (nll ((dats m 0 c).arrAt 2 cfg0.N) (m ((c : Thread nD τ).loc main_arg0)) (m ((c : Thread nD τ).loc main_arg3))
            (label (m ((c : Thread nD τ).loc main_arg1)) (m ((c : Thread nD τ).loc main_arg2)))) := by
  unfold Pipeline.afterTail₀
  simp only [hostOps1, hostOps1_1, hostOps1_2, hostOps1_3, hostOps1_4, List.flatten_cons, List.flatten_nil, List.append_nil,
    List.cons_append, List.nil_append]
  after_results_simp
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have e0 : Pipeline.withArrays (cfgs 0).spec c (V0 m c) (fun w => (dats m 0 c).arrAt w (cfgs 0).N) (Proc.devRef .tc main_arg0)
      = m ((c : Thread nD τ).loc main_arg0) :=
    (Pipeline.withArrays_arr spec0 launch0.win.arr_inj c _ _ 0).trans
      (((dats m 0 c).arrAt_in 0 rfl _).trans ((A_eq m c 0).trans (V_main_arg0 m c)))
  have e3 : Pipeline.withArrays (cfgs 0).spec c (V0 m c) (fun w => (dats m 0 c).arrAt w (cfgs 0).N) (Proc.devRef .tc main_arg3)
      = m ((c : Thread nD τ).loc main_arg3) :=
    (Pipeline.withArrays_arr spec0 launch0.win.arr_inj c _ _ 1).trans
      (((dats m 0 c).arrAt_in 1 rfl _).trans ((A_eq m c 1).trans (V_main_arg3 m c)))
  have ev : Pipeline.withArrays (cfgs 0).spec c (V0 m c) (fun w => (dats m 0 c).arrAt w (cfgs 0).N) (Proc.devRef .tc main_v0)
      = (dats m 0 c).arrAt 2 cfg0.N :=
    Pipeline.withArrays_arr spec0 launch0.win.arr_inj c _ _ 2
  rw [e0, e1, e2, e3, ev]
  simp only [TRef.ofBuf, TRef.toBuf, cast_eq]
  rfl

end Cert.KernelIdeal.Tail

end
-- ==== Proof.KerRun.lean ====
import proofs.«406967_j32916629357083_1_alg».proof.Proof.KerTail

/-! # The kernel program's run, read

Every weakly fair execution of the kernel program ends with the result buffer at the loss of the kept rows' negative
log-likelihoods — the log-sum-exp column being the array the region left — and with the four arguments unchanged. -/

set_option maxRecDepth 16384

noncomputable section

open Idealize.ShloMosaic Idealize.ShloMosaic.TcCoe Idealize.SL.Sem

namespace Cert.KernelIdeal.Run

open Cert.KernelIdeal Cert.KernelIdeal.Gen

variable {F : FTy → Type} [FloatOps F]
variable (m : (ℓ : Loc nD τ sig) → Buf (Elt F) ℓ) (ρ : Dev nD → PrngReg)

/-- The result the run ends with on core `c`. -/
def result (c : Dev nD) : Buf (Elt F) ((c : Thread nD τ).loc main_v35) :=
  Tail.loss (F := F) (Tail.mask (m ((c : Thread nD τ).loc main_arg1)) (Tail.label (m ((c : Thread nD τ).loc main_arg1)) (m ((c : Thread nD τ).loc main_arg2))))
    (Tail.nll ((dats m 0 c).arrAt 2 cfg0.N) (m ((c : Thread nD τ).loc main_arg0)) (m ((c : Thread nD τ).loc main_arg3))
      (Tail.label (m ((c : Thread nD τ).loc main_arg1)) (m ((c : Thread nD τ).loc main_arg2))))

theorem run : θ_run defs (onTc (τ := τ) (main (F := F))) ⟨m, fun _ => 0, ρ⟩ (fun r => ∀ c : Dev nD,
      r.2.mem ((c.tc : Thread nD τ).loc main_v35) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v35 (Pipeline.mem_restRefs_of main_v35 (by decide) (by decide))).trans (Tail.tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c)))⟩)
    (run_main m ρ)

end Cert.KernelIdeal.Run

end
-- ==== Proof.KerPieces.lean ====
import proofs.«406967_j32916629357083_1_alg».proof.Proof.Gen.KernelIdeal.Frame
import Idealize.ShloMosaic.Lib.Pipeline.Value
import Idealize.ShloMosaic.Lib.Tactic

/-! # What one grid point leaves in the running maximum, the running sum and the output

At a grid point the body reads the feature block `x0` and the table block `x1`. With `m` the running maximum and `l`
the running sum it finds (at a row block's first point the `-∞` and `0` it has just stored), it leaves
`m' = max m (rowmax s)` in the first scratch, `exp (m − m') · l + rowsum (exp (s − m'))` in the second, where
`s = 30 · x0 · x1ᵀ`, and at a row block's last point `m' + log l'` in the output block. Each is the body's named payload
of those arguments. -/

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The running maximum after a point: the body's `m' = max m (rowmax s)`. -/
abbrev newMax (x0 : Vec F S2048x256 .f32) (x1 : Vec F S1000x256 .f32) (m : Vec F S2048x1 .f32) : Vec F S2048x1 .f32 := k0_pay7 x0 x1 m
/-- The running sum after a point: `exp (m − m') · l + rowsum (exp (s − m'))`. -/
abbrev newSum (x0 : Vec F S2048x256 .f32) (x1 : Vec F S1000x256 .f32) (m l : Vec F S2048x1 .f32) : Vec F S2048x1 .f32 := k0_pay6 x0 x1 m m l

/-! ## A row block's first point: the two scratches are reset, then updated -/

theorem first_max (c : Dev nD) (i : grid0.Coords) (arg2 : Memref sig .tc .vmem S2048x256 .f32) (harg2 : arg2.IsWhole) (arg3 : Memref sig .tc .vmem S1000x256 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i) (x0 : Vec F S2048x256 .f32) (x1 : Vec F S1000x256 .f32) :
    sout0_A_0 c i arg2 harg2 arg3 harg3 arg4 harg4 arg5 harg5 arg6 harg6 hc0 hc1 x0 x1 = newMax x0 x1 (k0_pay2 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S2048x1) hz]
  simp only [View.readCov_unit_zero (S := S2048x1) _ hz, View.readAt_eq_ld, harg2.read_unread, harg3.read_unread,
    View.ld_unit_zero (S := S2048x256) hz, View.ld_unit_zero (S := S1000x256) hz, View.ld_unit_zero (S := S2048x1) hz]

theorem first_sum (c : Dev nD) (i : grid0.Coords) (arg2 : Memref sig .tc .vmem S2048x256 .f32) (harg2 : arg2.IsWhole) (arg3 : Memref sig .tc .vmem S1000x256 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i) (x0 : Vec F S2048x256 .f32) (x1 : Vec F S1000x256 .f32) :
    sout0_A_1 c i arg2 harg2 arg3 harg3 arg4 harg4 arg5 harg5 arg6 harg6 hc0 hc1 x0 x1 = newSum x0 x1 (k0_pay2 (F := F)) (k0_pay3 (F := F)) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S2048x1) hz]
  simp only [View.readCov_unit_zero (S := S2048x1) _ hz, View.readAt_eq_ld, harg2.read_unread, harg3.read_unread,
    View.ld_unit_zero (S := S2048x256) hz, View.ld_unit_zero (S := S1000x256) hz, View.ld_unit_zero (S := S2048x1) hz]

/-! ## A middle point: the scratches updated from what the point before left -/

theorem mid_max (c : Dev nD) (i : grid0.Coords) (arg2 : Memref sig .tc .vmem S2048x256 .f32) (harg2 : arg2.IsWhole) (arg3 : Memref sig .tc .vmem S1000x256 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x256 .f32) (x1 : Vec F S1000x256 .f32) (xs0 xs1 : Vec F S2048x1 .f32) :
    sout0_B_0 c i arg2 harg2 arg3 harg3 arg4 harg4 arg5 harg5 arg6 harg6 hc0 hc1 x0 x1 xs0 xs1 = newMax x0 x1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg2.read_unread, harg3.read_unread, harg5.read_unread, harg6.read_unread,
    View.ld_unit_zero (S := S2048x256) hz, View.ld_unit_zero (S := S1000x256) hz, View.ld_unit_zero (S := S2048x1) hz]

theorem mid_sum (c : Dev nD) (i : grid0.Coords) (arg2 : Memref sig .tc .vmem S2048x256 .f32) (harg2 : arg2.IsWhole) (arg3 : Memref sig .tc .vmem S1000x256 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x256 .f32) (x1 : Vec F S1000x256 .f32) (xs0 xs1 : Vec F S2048x1 .f32) :
    sout0_B_1 c i arg2 harg2 arg3 harg3 arg4 harg4 arg5 harg5 arg6 harg6 hc0 hc1 x0 x1 xs0 xs1 = newSum x0 x1 xs0 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg2.read_unread, harg3.read_unread, harg5.read_unread, harg6.read_unread,
    View.ld_unit_zero (S := S2048x256) hz, View.ld_unit_zero (S := S1000x256) hz, View.ld_unit_zero (S := S2048x1) hz]

/-! ## A row block's last point: the same update, and the output block stored -/

theorem last_max (c : Dev nD) (i : grid0.Coords) (arg2 : Memref sig .tc .vmem S2048x256 .f32) (harg2 : arg2.IsWhole) (arg3 : Memref sig .tc .vmem S1000x256 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .f32) (x1 : Vec F S1000x256 .f32) (xs0 xs1 : Vec F S2048x1 .f32) :
    sout0_C_0 c i arg2 harg2 arg3 harg3 arg4 harg4 arg5 harg5 arg6 harg6 hc0 hc1 x0 x1 xs0 xs1 = newMax x0 x1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg5.read_unread, harg6.read_unread,
    View.ld_unit_zero (S := S2048x256) hz, View.ld_unit_zero (S := S1000x256) hz, View.ld_unit_zero (S := S2048x1) hz]

theorem last_sum (c : Dev nD) (i : grid0.Coords) (arg2 : Memref sig .tc .vmem S2048x256 .f32) (harg2 : arg2.IsWhole) (arg3 : Memref sig .tc .vmem S1000x256 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .f32) (x1 : Vec F S1000x256 .f32) (xs0 xs1 : Vec F S2048x1 .f32) :
    sout0_C_1 c i arg2 harg2 arg3 harg3 arg4 harg4 arg5 harg5 arg6 harg6 hc0 hc1 x0 x1 xs0 xs1 = newSum x0 x1 xs0 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg5.read_unread, harg6.read_unread,
    View.ld_unit_zero (S := S2048x256) hz, View.ld_unit_zero (S := S1000x256) hz, View.ld_unit_zero (S := S2048x1) hz]

theorem last_out (c : Dev nD) (i : grid0.Coords) (arg2 : Memref sig .tc .vmem S2048x256 .f32) (harg2 : arg2.IsWhole) (arg3 : Memref sig .tc .vmem S1000x256 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .f32) (x1 : Vec F S1000x256 .f32) (xs0 xs1 : Vec F S2048x1 .f32) :
    out0_C_2 c i arg2 harg2 arg3 harg3 arg4 harg4 arg5 harg5 arg6 harg6 hc0 hc1 x0 x1 xs0 xs1 = k0_pay1 (newMax x0 x1 xs0) (newSum x0 x1 xs0 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz]
  simp only [View.readCov_unit_zero (S := S2048x1) _ hz, View.readAt_eq_ld, harg2.read_unread, harg3.read_unread,
    harg5.read_unread, harg6.read_unread, View.ld_unit_zero (S := S2048x256) hz, View.ld_unit_zero (S := S1000x256) hz,
    View.ld_unit_zero (S := S2048x1) hz]

end Cert.KernelIdeal.Pieces

end
-- ==== Proof.Spec.lean ====
import Mathlib.Analysis.SpecialFunctions.Log.Basic
import Idealize.ShloMosaic.Lib.ValueIdx

/-! # The loss both programs compute, row by row, over the reals

Row `r` of the features against row `p` of the table gives the scaled similarity
`logit x w r p = 30 · ∑ₖ x[r, k] · w[p, k]`. A row's log-sum-exp is `lse s = log ∑ₚ exp (s p)`, and the negative
log-likelihood of class `p` on row `r` is `nll x w r p = lse (logit x w r) − logit x w r p`. -/

noncomputable section

namespace Cert.Oim

open Idealize.ShloMosaic Idealize.ShloMosaic.ValueIdx

/-- The features' shape, `[4096, 256]`. -/
abbrev SX : Shape := ⟨2, ![4096, 256]⟩
/-- The table's shape, `[15000, 256]`. -/
abbrev SW : Shape := ⟨2, ![15000, 256]⟩

/-- The scaled similarity of feature row `r` and table row `p`: thirty times their inner product. -/
def logit (x : SX.Idx → ℝ) (w : SW.Idx → ℝ) (r : Fin 4096) (p : Fin 15000) : ℝ :=
  (∑ k : Fin 256, x (ix2 r k) * w (ix2 p k)) * 30

/-- The log-sum-exp of a row of 15000 reals. -/
def lse (s : Fin 15000 → ℝ) : ℝ := Real.log (∑ p : Fin 15000, Real.exp (s p))

/-- The negative log-likelihood of class `p` on row `r`. -/
def nll (x : SX.Idx → ℝ) (w : SW.Idx → ℝ) (r : Fin 4096) (p : Fin 15000) : ℝ :=
  lse (logit x w r) - logit x w r p

end Cert.Oim

end
-- ==== Proof.OnlineLse.lean ====
import Mathlib.Analysis.SpecialFunctions.Log.Basic
import Mathlib.Data.EReal.Basic
import Mathlib.Algebra.BigOperators.Fin
import Mathlib.Logic.Equiv.Fin.Basic
import proofs.«406967_j32916629357083_1_alg».proof.Proof.Spec

/-! # A log-sum-exp taken tile by tile

A row of 15000 reals is read in 15 tiles of 1000. The running pair `(c, l)` keeps `l = ∑ exp (s p − c)` over the entries
read so far, for whatever real shift `c` is current; changing the shift from `c` to `c'` multiplies the sum by
`exp (c − c')`. At the end `c + log l` is the row's log-sum-exp whatever the last shift is, because
`c + log ∑ exp (s p − c) = log ∑ exp (s p)`. -/

noncomputable section

namespace Cert.Oim

/-- Entry `k` of tile `j` of a row. -/
def tileIdx (j : Fin 15) (k : Fin 1000) : Fin 15000 := ⟨1000 * j.val + k.val, by have := j.isLt; have := k.isLt; omega⟩

/-- The sum of `exp (s p − c)` over the first `n` tiles. -/
def psum (s : Fin 15000 → ℝ) (n : ℕ) (c : ℝ) : ℝ :=
  ∑ j : Fin 15, if j.val < n then ∑ k : Fin 1000, Real.exp (s (tileIdx j k) - c) else 0

theorem psum_zero (s : Fin 15000 → ℝ) (c : ℝ) : psum s 0 c = 0 := by
  simp [psum]

/-- One more tile, with the shift moved from `c` to `c'`. -/
theorem psum_succ (s : Fin 15000 → ℝ) (j : Fin 15) (c c' : ℝ) :
    Real.exp (c - c') * psum s j.val c + ∑ k : Fin 1000, Real.exp (s (tileIdx j k) - c') = psum s (j.val + 1) c' := by
  unfold psum
  -- the new tile, written as a sum over all tiles that is zero off tile `j`
  have h : ∑ k : Fin 1000, Real.exp (s (tileIdx j k) - c')
      = ∑ i : Fin 15, if i = j then ∑ k : Fin 1000, Real.exp (s (tileIdx i k) - c') else 0 := by
    rw [Finset.sum_ite_eq' Finset.univ j]
    simp
  rw [h, Finset.mul_sum, ← Finset.sum_add_distrib]
  apply Finset.sum_congr rfl
  intro i _
  rcases lt_trichotomy i.val j.val with hlt | heq | hgt
  · -- an earlier tile: its sum is rescaled by `exp (c − c')`
    have hne : i ≠ j := by
      intro hij
      rw [hij] at hlt
      exact lt_irrefl _ hlt
    rw [if_pos hlt, if_neg hne, if_pos (by omega), add_zero, Finset.mul_sum]
    apply Finset.sum_congr rfl
    intro k _
    rw [← Real.exp_add]
    congr 1
    ring
  · -- the new tile itself
    have hij : i = j := Fin.ext heq
    subst hij
    rw [if_neg (lt_irrefl _), if_pos rfl, if_pos (by omega), mul_zero, zero_add]
  · -- a later tile: absent on both sides
    have hne : i ≠ j := by
      intro hij
      rw [hij] at hgt
      exact lt_irrefl _ hgt
    rw [if_neg (by omega), if_neg hne, if_neg (by omega), mul_zero, add_zero]

/-- The first tile alone. -/
theorem psum_one (s : Fin 15000 → ℝ) (c' : ℝ) :
    ∑ k : Fin 1000, Real.exp (s (tileIdx 0 k) - c') = psum s 1 c' := by
  have h := psum_succ s 0 0 c'
  rw [Fin.val_zero, psum_zero, mul_zero, zero_add, zero_add] at h
  exact h

/-- The row's entries, tile by tile, are the pairs `(j, k)`. -/
def tileEquiv : Fin 15 × Fin 1000 ≃ Fin 15000 :=
  (finProdFinEquiv : Fin 15 × Fin 1000 ≃ Fin (15 * 1000)).trans (finCongr (by norm_num))

theorem tileEquiv_apply (x : Fin 15 × Fin 1000) : tileEquiv x = tileIdx x.1 x.2 := by
  apply Fin.ext
  simp [tileEquiv, tileIdx, finProdFinEquiv]
  omega

/-- All fifteen tiles are the whole row. -/
theorem psum_full (s : Fin 15000 → ℝ) (c : ℝ) : psum s 15 c = ∑ p : Fin 15000, Real.exp (s p - c) := by
  unfold psum
  have h1 : ∀ j : Fin 15, (if j.val < 15 then ∑ k : Fin 1000, Real.exp (s (tileIdx j k) - c) else 0)
      = ∑ k : Fin 1000, Real.exp (s (tileIdx j k) - c) := fun j => if_pos j.isLt
  rw [Finset.sum_congr rfl (fun j _ => h1 j), ← Fintype.sum_prod_type']
  apply Fintype.sum_equiv tileEquiv
  intro x
  rw [tileEquiv_apply]

theorem psum_pos (s : Fin 15000 → ℝ) (n : ℕ) (hn : 0 < n) (c : ℝ) : 0 < psum s n c := by
  unfold psum
  apply Finset.sum_pos'
  · intro j _
    split_ifs
    · exact Finset.sum_nonneg (fun k _ => (Real.exp_pos _).le)
    · exact le_refl _
  · refine ⟨0, Finset.mem_univ _, ?_⟩
    rw [if_pos (by simpa using hn)]
    exact Finset.sum_pos (fun k _ => Real.exp_pos _) Finset.univ_nonempty

/-- The shift cancels: `c + log ∑ exp (s p − c)` is the row's log-sum-exp. -/
theorem shift_lse (s : Fin 15000 → ℝ) (c : ℝ) : c + Real.log (∑ p : Fin 15000, Real.exp (s p - c)) = lse s := by
  unfold lse
  have hpos : 0 < ∑ p : Fin 15000, Real.exp (s p) :=
    Finset.sum_pos (fun p _ => Real.exp_pos _) Finset.univ_nonempty
  have h : ∑ p : Fin 15000, Real.exp (s p - c) = (∑ p : Fin 15000, Real.exp (s p)) * Real.exp (-c) := by
    rw [Finset.sum_mul]
    apply Finset.sum_congr rfl
    intro p _
    rw [← Real.exp_add]
    congr 1
  rw [h, Real.log_mul hpos.ne' (Real.exp_pos _).ne', Real.log_exp]
  ring

/-- The tiled form of the same. -/
theorem shift_psum (s : Fin 15000 → ℝ) (c : ℝ) : c + Real.log (psum s 15 c) = lse s := by
  rw [psum_full]; exact shift_lse s c

/-- A `log_softmax` entry negated, with whatever real shift it was computed under. -/
theorem neg_logSoftmax (s : Fin 15000 → ℝ) (c : ℝ) (p : Fin 15000) :
    -((s p - c) - Real.log (∑ q : Fin 15000, Real.exp (s q - c))) = lse s - s p := by
  have := shift_lse s c
  linarith

/-- A fold of `max` over a non-empty finite family of reals, started at `⊥` or at a real, is a real. -/
theorem fold_max_real {n : ℕ} (hn : 0 < n) (f : Fin n → ℝ) (b : EReal) (hb : b = ⊥ ∨ ∃ r : ℝ, b = (r : EReal)) :
    ∃ r : ℝ, (Finset.univ : Finset (Fin n)).fold max b (fun k => ((f k : ℝ) : EReal)) = (r : EReal) := by
  have hbtop : b < ⊤ := by
    rcases hb with hb | ⟨r, hr⟩
    · rw [hb]; exact bot_lt_top
    · rw [hr]; exact EReal.coe_lt_top r
  -- the fold is below `⊤`: the start is, and so is every entry
  have hlt : (Finset.univ : Finset (Fin n)).fold max b (fun k => ((f k : ℝ) : EReal)) < ⊤ :=
    (Finset.fold_max_lt ⊤).2 ⟨hbtop, fun k _ => EReal.coe_lt_top (f k)⟩
  -- the fold is above `⊥`: entry `0` is
  have hgt : ⊥ < (Finset.univ : Finset (Fin n)).fold max b (fun k => ((f k : ℝ) : EReal)) :=
    (Finset.lt_fold_max ⊥).2 (Or.inr ⟨⟨0, hn⟩, Finset.mem_univ _, EReal.bot_lt_coe _⟩)
  exact ⟨_, (EReal.coe_toReal hlt.ne hgt.ne').symm⟩

/-- The coercion of a finite sum of reals into the extended reals is the sum of the coercions. -/
theorem coe_sum {ι : Type} (t : Finset ι) (f : ι → ℝ) : ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

end Cert.Oim

end
-- ==== Proof.Consts.lean ====
import Idealize.ShloMosaic.PureOps.Ideal

/-! The three float literals the programs spell, as the extended reals their patterns denote: the scale `30`, the
    running maximum's start `-∞`, and `0`. -/

noncomputable section

namespace Cert.Oim

open Idealize.ShloMosaic

theorem ofBits_zero : Ideal.ofBits .f32 0x00000000#32 = 0 := by
  simp [Ideal.ofBits, Ideal.ieee]

theorem ofBits_thirty : Ideal.ofBits .f32 0x41F00000#32 = ((30 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

end Cert.Oim

end
-- ==== Proof.KerStep.lean ====
import proofs.«406967_j32916629357083_1_alg».proof.Proof.Gen.KernelIdeal.Skeleton
import proofs.«406967_j32916629357083_1_alg».proof.Proof.Spec
import proofs.«406967_j32916629357083_1_alg».proof.Proof.OnlineLse
import proofs.«406967_j32916629357083_1_alg».proof.Proof.Consts
import Idealize.ShloMosaic.Lib.Pipeline.Value
import Idealize.ShloMosaic.Lib.ValueIdx
import Idealize.ShloMosaic.Lib.ValueLayout
import Idealize.ShloMosaic.PureOps.Ideal.Laws

/-! # One grid point's arithmetic, row by row, over the reals

With a feature block and a table block of real numbers, the tile's scaled similarities are real
(`tlogit`: thirty times an inner product). Row `q` of the new running maximum is then a real `c'`, and row `q` of the new
running sum is `exp (c − c') · l + ∑ₖ exp (tlogit q k − c')` when the point found the reals `c` and `l` there; at a row
block's first point, which finds `-∞` and `0`, it is `∑ₖ exp (tlogit q k − c')` alone, because `exp (-∞) = 0`. The
output row is `c + log l`. -/

noncomputable section

namespace Cert.KernelIdeal.Step

open Idealize.ShloMosaic Idealize.ShloMosaic.ValueIdx Cert.KernelIdeal Cert.KernelIdeal.Gen Cert.Oim

/-- The scaled similarity of row `q` of a feature block and row `k` of a table block. -/
def tlogit (xb : S2048x256.Idx → ℝ) (wb : S1000x256.Idx → ℝ) (q : Fin 2048) (k : Fin 1000) : ℝ :=
  (∑ d : Fin 256, xb (ix2 q d) * wb (ix2 k d)) * 30

/-! ## Reading the layout operations at a row -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over row `q` of the reduced shape, the source index with coordinate `k` on the dropped axis is `(q, k)`. -/
theorem lift_row (h : S2048x1000.Reduces [1] S2048) (q : Fin 2048) (k : Fin 1000) : h.lift (ix1 q) k = ix2 q k :=
  funext fun c => Fin.ext (by
    match c with
    | ⟨0, _⟩ => rfl
    | ⟨1, _⟩ => rfl)

/-! ## The product of the blocks at an entry -/

theorem lhs_axis0 (i : S2048x1000.Idx) (p : dot_S2048x256_S1000x256_S2048x1000_1_1_0_0_n_n.contr.Idx) :
    (dot_S2048x256_S1000x256_S2048x1000_1_1_0_0_n_n.lhsIdx i p 0).val = (i 0).val := by
  unfold DotDims.lhsIdx
  rw [dif_neg (show ¬(0 : Fin S2048x256.rank) ∈ dot_S2048x256_S1000x256_S2048x1000_1_1_0_0_n_n.lhsBatch by decide), dif_pos (show (0 : Fin S2048x256.rank) ∈ dot_S2048x256_S1000x256_S2048x1000_1_1_0_0_n_n.lhsNonContracting by decide)]
  rfl
theorem lhs_axis1 (i : S2048x1000.Idx) (p : dot_S2048x256_S1000x256_S2048x1000_1_1_0_0_n_n.contr.Idx) :
    (dot_S2048x256_S1000x256_S2048x1000_1_1_0_0_n_n.lhsIdx i p 1).val = (p ⟨0, by decide⟩).val :=
  dot_S2048x256_S1000x256_S2048x1000_1_1_0_0_n_n.lhsIdx_val_of_single rfl i p
theorem rhs_axis0 (i : S2048x1000.Idx) (p : dot_S2048x256_S1000x256_S2048x1000_1_1_0_0_n_n.contr.Idx) :
    (dot_S2048x256_S1000x256_S2048x1000_1_1_0_0_n_n.rhsIdx i p 0).val = (i 1).val := by
  unfold DotDims.rhsIdx
  rw [dif_neg (show ¬(0 : Fin S1000x256.rank) ∈ dot_S2048x256_S1000x256_S2048x1000_1_1_0_0_n_n.rhsBatch by decide), dif_pos (show (0 : Fin S1000x256.rank) ∈ dot_S2048x256_S1000x256_S2048x1000_1_1_0_0_n_n.rhsNonContracting by decide)]
  rfl
theorem rhs_axis1 (i : S2048x1000.Idx) (p : dot_S2048x256_S1000x256_S2048x1000_1_1_0_0_n_n.contr.Idx) :
    (dot_S2048x256_S1000x256_S2048x1000_1_1_0_0_n_n.rhsIdx i p 1).val = (p ⟨0, by decide⟩).val :=
  dot_S2048x256_S1000x256_S2048x1000_1_1_0_0_n_n.rhsIdx_val_of_single rfl i p

/-- The blocks' product into a zero accumulator, at `(q, k)`: the inner product of row `q` and row `k`. -/
theorem matmul_read (X : Vec Ideal S2048x256 .f32) (W : Vec Ideal S1000x256 .f32) (q : Fin 2048) (k : Fin 1000) :
    matmul (F := Ideal) dot_S2048x256_S1000x256_S2048x1000_1_1_0_0_n_n none (truncf .bf16 X bitsLt_bf16_f32) (truncf .bf16 W bitsLt_bf16_f32)
        (constant S2048x1000 .f32 0x00000000#32) (ix2 q k)
      = ∑ d : Fin 256, X (ix2 q d) * W (ix2 k d) := by
  refine (Ideal.matmul_constant_zero_apply dot_S2048x256_S1000x256_S2048x1000_1_1_0_0_n_n none (truncf .bf16 X bitsLt_bf16_f32) (truncf .bf16 W bitsLt_bf16_f32) (ix2 q k)).trans ?_
  rw [← Equiv.sum_comp (ValueIdx.contrEquiv1 dot_S2048x256_S1000x256_S2048x1000_1_1_0_0_n_n 256 rfl rfl).symm]
  refine Finset.sum_congr rfl fun d _ => ?_
  have hd := ValueIdx.contrEquiv1_symm_val dot_S2048x256_S1000x256_S2048x1000_1_1_0_0_n_n 256 rfl rfl d
  have el : dot_S2048x256_S1000x256_S2048x1000_1_1_0_0_n_n.lhsIdx (ix2 q k) ((ValueIdx.contrEquiv1 dot_S2048x256_S1000x256_S2048x1000_1_1_0_0_n_n 256 rfl rfl).symm d) = ix2 q d := funext fun a => Fin.ext (by
    match a with
    | ⟨0, _⟩ => exact lhs_axis0 _ _
    | ⟨1, _⟩ => exact (lhs_axis1 _ _).trans hd)
  have er : dot_S2048x256_S1000x256_S2048x1000_1_1_0_0_n_n.rhsIdx (ix2 q k) ((ValueIdx.contrEquiv1 dot_S2048x256_S1000x256_S2048x1000_1_1_0_0_n_n 256 rfl rfl).symm d) = ix2 k d := funext fun a => Fin.ext (by
    match a with
    | ⟨0, _⟩ => exact rhs_axis0 _ _
    | ⟨1, _⟩ => exact (rhs_axis1 _ _).trans hd)
  rw [el, er, truncf_apply, truncf_apply]

variable (X : Vec Ideal S2048x256 .f32) (W : Vec Ideal S1000x256 .f32)
  (xb : S2048x256.Idx → ℝ) (wb : S1000x256.Idx → ℝ)
  (hX : ∀ i, X i = ((xb i : ℝ) : EReal)) (hW : ∀ i, W i = ((wb i : ℝ) : EReal))

include hX hW

/-- The tile's scaled similarities: the product of the blocks (a change of float format is the identity), times 30. -/
theorem pay4_apply (q : Fin 2048) (k : Fin 1000) :
    k0_pay4 (F := Ideal) X W (ix2 q k) = ((tlogit xb wb q k : ℝ) : EReal) := by
  show (matmul (F := Ideal) dot_S2048x256_S1000x256_S2048x1000_1_1_0_0_n_n none (truncf .bf16 X bitsLt_bf16_f32) (truncf .bf16 W bitsLt_bf16_f32)
        (constant S2048x1000 .f32 0x00000000#32)) (ix2 q k) * Ideal.ofBits .f32 0x41F00000#32 = _
  rw [matmul_read X W q k, ofBits_thirty]
  unfold tlogit
  rw [EReal.coe_mul, coe_sum]
  congr 1
  refine Finset.sum_congr rfl fun d _ => ?_
  rw [hX, hW, EReal.coe_mul]

/-- The new running maximum at row `q`: the old one against the row's largest scaled similarity. -/
theorem pay5_apply (M : Vec Ideal S2048x1 .f32) (q : Fin 2048) :
    k0_pay5 (F := Ideal) X W M (ix2 q (0 : Fin 1))
      = max (M (ix2 q (0 : Fin 1)))
          ((Finset.univ : Finset (Fin 1000)).fold max (⊥ : EReal) (fun k => ((tlogit xb wb q k : ℝ) : EReal))) := by
  unfold k0_pay5
  refine (maximumf_apply _ _ _).trans ?_
  refine congrArg (max (M (ix2 q (0 : Fin 1)))) ?_
  refine (shapeCast_a_a1_apply _ _ _ _).trans ?_
  refine (Ideal.multiReduction_maximumf_single _ _ _ _ _ _).trans ?_
  rw [Ideal.ofBits_def, ofBits_negInf]
  show (Finset.univ : Finset (Fin 1000)).fold max (⊥ : EReal)
      (fun k : Fin 1000 => k0_pay4 (F := Ideal) X W (reduces_S2048x1000_S2048.lift (ix1 q) k)) = _
  have hf : (fun k : Fin 1000 => k0_pay4 (F := Ideal) X W (reduces_S2048x1000_S2048.lift (ix1 q) k))
      = fun k : Fin 1000 => ((tlogit xb wb q k : ℝ) : EReal) :=
    funext fun k => (congrArg (k0_pay4 (F := Ideal) X W) (lift_row _ q k)).trans (pay4_apply X W xb wb hX hW q k)
  rw [hf]

/-- The stored running maximum is the new running maximum. -/
theorem pay7_apply (M : Vec Ideal S2048x1 .f32) (i : S2048x1.Idx) :
    k0_pay7 (F := Ideal) X W M i = k0_pay5 (F := Ideal) X W M i := by
  unfold k0_pay7
  rw [shapeCast_self]

/-- The new running sum at row `q`: the old one rescaled, plus the row's exponentials under the new maximum. -/
theorem pay6_apply (M M' L : Vec Ideal S2048x1 .f32) (q : Fin 2048) :
    k0_pay6 (F := Ideal) X W M M' L (ix2 q (0 : Fin 1))
      = Ideal.exp (M' (ix2 q (0 : Fin 1)) - k0_pay5 (F := Ideal) X W M (ix2 q (0 : Fin 1))) * L (ix2 q (0 : Fin 1))
        + ∑ k : Fin 1000, Ideal.exp (((tlogit xb wb q k : ℝ) : EReal) - k0_pay5 (F := Ideal) X W M (ix2 q (0 : Fin 1))) := by
  unfold k0_pay6
  rw [shapeCast_self]
  refine (addf_apply _ _ _).trans ?_
  refine congrArg₂ (· + ·) rfl ?_
  refine (shapeCast_a_a1_apply _ _ _ _).trans ?_
  refine (Ideal.multiReduction_add_single _ _ _ _ _ _).trans ?_
  show ∑ k : Fin 1000, Ideal.exp (k0_pay4 (F := Ideal) X W (reduces_S2048x1000_S2048.lift (ix1 q) k)
      - broadcastTo S2048x1000 (k0_pay5 (F := Ideal) X W M) broadcasts_S2048x1_S2048x1000 (reduces_S2048x1000_S2048.lift (ix1 q) k)) = _
  refine Finset.sum_congr rfl fun k _ => ?_
  have h4 : k0_pay4 (F := Ideal) X W (reduces_S2048x1000_S2048.lift (ix1 q) k) = ((tlogit xb wb q k : ℝ) : EReal) :=
    (congrArg (k0_pay4 (F := Ideal) X W) (lift_row _ q k)).trans (pay4_apply X W xb wb hX hW q k)
  have hb : broadcastTo S2048x1000 (k0_pay5 (F := Ideal) X W M) broadcasts_S2048x1_S2048x1000 (reduces_S2048x1000_S2048.lift (ix1 q) k)
      = k0_pay5 (F := Ideal) X W M (ix2 q (0 : Fin 1)) :=
    (congrArg (broadcastTo S2048x1000 (k0_pay5 (F := Ideal) X W M) broadcasts_S2048x1_S2048x1000) (lift_row _ q k)).trans
      (broadcastTo_a1_ab_apply _ _ q k)
  rw [h4, hb]

omit hX hW in
/-- The running maximum's start is `-∞` everywhere. -/
theorem pay2_apply (i : S2048x1.Idx) : k0_pay2 (F := Ideal) i = (⊥ : EReal) := by
  unfold k0_pay2
  rw [shapeCast_self]
  exact ofBits_negInf

omit hX hW in
/-- The running sum's start is `0` everywhere. -/
theorem pay3_apply (i : S2048x1.Idx) : k0_pay3 (F := Ideal) i = (0 : EReal) := by
  unfold k0_pay3
  rw [shapeCast_self]
  exact ofBits_zero

omit hX hW in
/-- The exponentials of real differences, summed over the row, as one real. -/
theorem sum_exp_coe (t : Fin 1000 → ℝ) (c' : ℝ) :
    ∑ k : Fin 1000, Ideal.exp (((t k : ℝ) : EReal) - ((c' : ℝ) : EReal)) = ((∑ k : Fin 1000, Real.exp (t k - c') : ℝ) : EReal) := by
  rw [coe_sum]
  refine Finset.sum_congr rfl fun k _ => ?_
  rw [← EReal.coe_sub, Ideal.exp_coe]

/-- A row block's first point: from `-∞` and `0`. -/
theorem first_step (q : Fin 2048) :
    ∃ c' : ℝ, k0_pay7 (F := Ideal) X W (k0_pay2 (F := Ideal)) (ix2 q (0 : Fin 1)) = ((c' : ℝ) : EReal)
      ∧ k0_pay6 (F := Ideal) X W (k0_pay2 (F := Ideal)) (k0_pay2 (F := Ideal)) (k0_pay3 (F := Ideal)) (ix2 q (0 : Fin 1))
          = ((∑ k : Fin 1000, Real.exp (tlogit xb wb q k - c') : ℝ) : EReal) := by
  obtain ⟨c', hc'⟩ := fold_max_real (n := 1000) (by norm_num) (fun k => tlogit xb wb q k) ⊥ (Or.inl rfl)
  -- the new maximum is the row's maximum, a real
  have h5 : k0_pay5 (F := Ideal) X W (k0_pay2 (F := Ideal)) (ix2 q (0 : Fin 1)) = ((c' : ℝ) : EReal) := by
    rw [pay5_apply X W xb wb hX hW, hc', pay2_apply]
    exact max_eq_right bot_le
  refine ⟨c', ?_, ?_⟩
  · rw [pay7_apply X W xb wb hX hW, h5]
  · -- the old sum's term is `exp (-∞) · 0 = 0`
    rw [pay6_apply X W xb wb hX hW, h5, pay2_apply, pay3_apply, EReal.bot_sub, Ideal.exp_bot, zero_mul, zero_add,
      sum_exp_coe]

/-- A later point: from the reals `c` and `l` the point before left in row `q`. -/
theorem next_step (q : Fin 2048) (M L : Vec Ideal S2048x1 .f32) (c l : ℝ)
    (hM : M (ix2 q (0 : Fin 1)) = ((c : ℝ) : EReal)) (hL : L (ix2 q (0 : Fin 1)) = ((l : ℝ) : EReal)) :
    ∃ c' : ℝ, k0_pay7 (F := Ideal) X W M (ix2 q (0 : Fin 1)) = ((c' : ℝ) : EReal)
      ∧ k0_pay6 (F := Ideal) X W M M L (ix2 q (0 : Fin 1))
          = ((Real.exp (c - c') * l + ∑ k : Fin 1000, Real.exp (tlogit xb wb q k - c') : ℝ) : EReal) := by
  obtain ⟨r, hr⟩ := fold_max_real (n := 1000) (by norm_num) (fun k => tlogit xb wb q k) ⊥ (Or.inl rfl)
  -- the new maximum is the larger of the old one and the row's, a real
  have h5 : k0_pay5 (F := Ideal) X W M (ix2 q (0 : Fin 1)) = ((max c r : ℝ) : EReal) := by
    rw [pay5_apply X W xb wb hX hW, hr, hM]
    exact (EReal.coe_strictMono.monotone.map_max).symm
  refine ⟨max c r, ?_, ?_⟩
  · rw [pay7_apply X W xb wb hX hW, h5]
  · rw [pay6_apply X W xb wb hX hW, h5, hM, hL, ← EReal.coe_sub, Ideal.exp_coe, sum_exp_coe, ← EReal.coe_mul,
      ← EReal.coe_add]

omit hX hW in
/-- The output row: `c + log l` for a positive `l`. -/
theorem out_step (q : Fin 2048) (M L : Vec Ideal S2048x1 .f32) (c l : ℝ) (hl : 0 < l)
    (hM : M (ix2 q (0 : Fin 1)) = ((c : ℝ) : EReal)) (hL : L (ix2 q (0 : Fin 1)) = ((l : ℝ) : EReal)) :
    k0_pay1 (F := Ideal) M L (ix2 q (0 : Fin 1)) = ((c + Real.log l : ℝ) : EReal) := by
  show M (ix2 q (0 : Fin 1)) + Ideal.log (L (ix2 q (0 : Fin 1))) = _
  rw [hM, hL, Ideal.log_coe, if_neg (not_le.2 hl), ← EReal.coe_add]

end Cert.KernelIdeal.Step

end
-- ==== Proof.KerInv.lean ====
import proofs.«406967_j32916629357083_1_alg».proof.Proof.KerPieces
import proofs.«406967_j32916629357083_1_alg».proof.Proof.KerStep
import proofs.«406967_j32916629357083_1_alg».proof.Proof.OnlineLse
import Idealize.ShloMosaic.Lib.Pipeline.Value
import Idealize.ShloMosaic.Lib.ValueIdx

/-! # The running maximum and sum after every grid point

Point `t` of the grid works on feature rows `2048 · (t / 15) + q` and on tile `t % 15` of the table. After it, row `q` of the
first scratch holds a real `c` and row `q` of the second holds `∑ exp (s p − c)` over the first `t % 15 + 1` tiles of that
feature row's similarities `s`: by induction on the point, the first point of a row block starting the sum and every later
one extending what the point before left. -/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.Oim Cert.KernelIdeal.Step

variable (m : (ℓ : Loc nD τ sig) → Buf (Elt Ideal) ℓ)

abbrev xarr (c : Dev nD) : Vec Ideal S4096x256 .f32 := V m c main_arg0
abbrev warr (c : Dev nD) : Vec Ideal S15000x256 .f32 := V m c main_arg3
abbrev xblk (c : Dev nD) (t : Fin cfg0.N) : Vec Ideal S2048x256 .f32 := iblk m c 0 t
abbrev wblk (c : Dev nD) (t : Fin cfg0.N) : Vec Ideal S1000x256 .f32 := iblk m c 1 t

theorem idx00 : ∀ t : Fin cfg0.N, win0_0.index t (0 : Fin 2) = t.val / 15 := (by decide +kernel : ∀ t : Fin grid0.N, _)
theorem idx01 : ∀ t : Fin cfg0.N, win0_0.index t (1 : Fin 2) = 0 := (by decide +kernel : ∀ t : Fin grid0.N, _)
theorem idx10 : ∀ t : Fin cfg0.N, win0_1.index t (0 : Fin 2) = t.val % 15 := (by decide +kernel : ∀ t : Fin grid0.N, _)
theorem idx11 : ∀ t : Fin cfg0.N, win0_1.index t (1 : Fin 2) = 0 := (by decide +kernel : ∀ t : Fin grid0.N, _)
theorem idx20 : ∀ t : Fin cfg0.N, win0_2.index t (0 : Fin 2) = t.val / 15 := (by decide +kernel : ∀ t : Fin grid0.N, _)
theorem idx21 : ∀ t : Fin cfg0.N, win0_2.index t (1 : Fin 2) = 0 := (by decide +kernel : ∀ t : Fin grid0.N, _)

theorem tN (t : Fin cfg0.N) : t.val < 30 := lt_of_lt_of_eq t.isLt (show cfg0.N = 30 from N_0)

theorem xblk_apply (c : Dev nD) (t : Fin cfg0.N) (q : Fin 2048) (d : Fin 256) :
    xblk m c t (ix2 q d) = xarr m c (ix2 ⟨2048 * (t.val / 15) + q.val, by have := tN t; have := q.isLt; omega⟩ d) := by
  show V m c main_arg0 (((cfg0.win 0).blk t).view.emb (ix2 q d)) = V m c main_arg0 _
  refine congrArg _ (funext fun a => Fin.ext ?_)
  match a with
  | ⟨0, _⟩ =>
    show win0_0.index t (0 : Fin 2) * 2048 + 1 * q.val = _
    rw [idx00]; show _ = 2048 * (t.val / 15) + q.val; omega
  | ⟨1, _⟩ =>
    show win0_0.index t (1 : Fin 2) * 256 + 1 * d.val = _
    rw [idx01]; show _ = d.val; omega

theorem wblk_apply (c : Dev nD) (t : Fin cfg0.N) (k : Fin 1000) (d : Fin 256) :
    wblk m c t (ix2 k d) = warr m c (ix2 ⟨1000 * (t.val % 15) + k.val, by have := k.isLt; omega⟩ d) := by
  show V m c main_arg3 (((cfg0.win 1).blk t).view.emb (ix2 k d)) = V m c main_arg3 _
  refine congrArg _ (funext fun a => Fin.ext ?_)
  match a with
  | ⟨0, _⟩ =>
    show win0_1.index t (0 : Fin 2) * 1000 + 1 * k.val = _
    rw [idx10]; show _ = 1000 * (t.val % 15) + k.val; omega
  | ⟨1, _⟩ =>
    show win0_1.index t (1 : Fin 2) * 256 + 1 * d.val = _
    rw [idx11]; show _ = d.val; omega

/-! ## Rows, tiles and real blocks -/

variable (xr : SX.Idx → ℝ) (wr : SW.Idx → ℝ)

/-- The feature row that block-local row `q` is at point `t`. -/
def rowOf (t : Fin cfg0.N) (q : Fin 2048) : Fin 4096 :=
  ⟨2048 * (t.val / 15) + q.val, by have := tN t; have := q.isLt; omega⟩
/-- The table tile point `t` reads. -/
def tileOf (t : Fin cfg0.N) : Fin 15 := ⟨t.val % 15, Nat.mod_lt _ (by norm_num)⟩

/-- Point `t`'s feature block, over the reals. -/
def xbOf (t : Fin cfg0.N) : S2048x256.Idx → ℝ := fun i => xr (ix2 (rowOf t ⟨(i 0).val, idx2_lt0 i⟩) ⟨(i 1).val, idx2_lt1 i⟩)
/-- Point `t`'s table block, over the reals. -/
def wbOf (t : Fin cfg0.N) : S1000x256.Idx → ℝ := fun i => wr (ix2 (tileIdx (tileOf t) ⟨(i 0).val, idx2_lt0 i⟩) ⟨(i 1).val, idx2_lt1 i⟩)

theorem xblk_real (c : Dev nD) (hx : ∀ j, xarr m c j = ((xr j : ℝ) : EReal)) (t : Fin cfg0.N) (i : S2048x256.Idx) :
    xblk m c t i = ((xbOf xr t i : ℝ) : EReal) := by
  obtain ⟨q, d, rfl⟩ : ∃ (q : Fin 2048) (d : Fin 256), i = ix2 q d := ⟨i 0, i 1, eq_ix2 i⟩
  rw [xblk_apply m c t q d, hx]
  rfl

theorem wblk_real (c : Dev nD) (hw : ∀ j, warr m c j = ((wr j : ℝ) : EReal)) (t : Fin cfg0.N) (i : S1000x256.Idx) :
    wblk m c t i = ((wbOf wr t i : ℝ) : EReal) := by
  obtain ⟨k, d, rfl⟩ : ∃ (k : Fin 1000) (d : Fin 256), i = ix2 k d := ⟨i 0, i 1, eq_ix2 i⟩
  rw [wblk_apply m c t k d, hw]
  rfl

/-- The tile's similarities are the row's, at the tile's entries. -/
theorem tlogit_eq (t : Fin cfg0.N) (q : Fin 2048) (k : Fin 1000) :
    tlogit (xbOf xr t) (wbOf wr t) q k = logit xr wr (rowOf t q) (tileIdx (tileOf t) k) := rfl

/-! ## What a point leaves, by case, over what the point before left -/

/-- What the point before `t` left (at the first point: read nowhere). -/
abbrev prev (c : Dev nD) (t : Fin cfg0.N) : Vec Ideal S2048x1 .f32 × Vec Ideal S2048x1 .f32 × Vec Ideal S2048x1 .f32 :=
  outsAt0 m c (t.val - 1) (Nat.lt_of_le_of_lt (Nat.sub_le _ _) t.isLt)

theorem outs_first (c : Dev nD) (t : Fin cfg0.N) (h0 : t.val % 15 = 0) (h1 : ¬t.val % 15 = 14) :
    (outsAt0 m c t.val t.isLt).2.1 = Pieces.newMax (xblk m c t) (wblk m c t) (k0_pay2 (F := Ideal))
    ∧ (outsAt0 m c t.val t.isLt).2.2 = Pieces.newSum (xblk m c t) (wblk m c t) (k0_pay2 (F := Ideal)) (k0_pay3 (F := Ideal)) := by
  rw [outsAt0_A m c t h0 h1]; dsimp only
  exact ⟨Pieces.first_max (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t),
    Pieces.first_sum (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)⟩

theorem outs_mid (c : Dev nD) (t : Fin cfg0.N) (h0 : ¬t.val % 15 = 0) (h1 : ¬t.val % 15 = 14) :
    (outsAt0 m c t.val t.isLt).2.1 = Pieces.newMax (xblk m c t) (wblk m c t) (prev m c t).2.1
    ∧ (outsAt0 m c t.val t.isLt).2.2 = Pieces.newSum (xblk m c t) (wblk m c t) (prev m c t).2.1 (prev m c t).2.2 := by
  rw [outsAt0_B m c t h0 h1]; dsimp only
  exact ⟨Pieces.mid_max (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (prev m c t).2.1 (prev m c t).2.2,
    Pieces.mid_sum (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (prev m c t).2.1 (prev m c t).2.2⟩

theorem outs_last (c : Dev nD) (t : Fin cfg0.N) (h0 : ¬t.val % 15 = 0) (h1 : t.val % 15 = 14) :
    (outsAt0 m c t.val t.isLt).2.1 = Pieces.newMax (xblk m c t) (wblk m c t) (prev m c t).2.1
    ∧ (outsAt0 m c t.val t.isLt).2.2 = Pieces.newSum (xblk m c t) (wblk m c t) (prev m c t).2.1 (prev m c t).2.2
    ∧ (outsAt0 m c t.val t.isLt).1 = k0_pay1 (F := Ideal) (Pieces.newMax (xblk m c t) (wblk m c t) (prev m c t).2.1)
        (Pieces.newSum (xblk m c t) (wblk m c t) (prev m c t).2.1 (prev m c t).2.2) := by
  rw [outsAt0_C m c t h0 h1]; dsimp only
  exact ⟨Pieces.last_max (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (prev m c t).2.1 (prev m c t).2.2,
    Pieces.last_sum (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (prev m c t).2.1 (prev m c t).2.2,
    Pieces.last_out (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (prev m c t).2.1 (prev m c t).2.2⟩

/-! ## The two steps of the sum, row by row -/

/-- A row block's first point starts the sum with its tile. -/
theorem start (c : Dev nD) (hx : ∀ j, xarr m c j = ((xr j : ℝ) : EReal)) (hw : ∀ j, warr m c j = ((wr j : ℝ) : EReal))
    (t : Fin cfg0.N) (ht : t.val % 15 = 0) (q : Fin 2048) :
    ∃ c' : ℝ, Pieces.newMax (xblk m c t) (wblk m c t) (k0_pay2 (F := Ideal)) (ix2 q (0 : Fin 1)) = ((c' : ℝ) : EReal)
      ∧ Pieces.newSum (xblk m c t) (wblk m c t) (k0_pay2 (F := Ideal)) (k0_pay3 (F := Ideal)) (ix2 q (0 : Fin 1))
          = ((psum (logit xr wr (rowOf t q)) (t.val % 15 + 1) c' : ℝ) : EReal) := by
  obtain ⟨c', h1, h2⟩ := first_step (xblk m c t) (wblk m c t) (xbOf xr t) (wbOf wr t) (xblk_real m xr c hx t) (wblk_real m wr c hw t) q
  refine ⟨c', h1, h2.trans (congrArg _ ?_)⟩
  have ht0 : tileOf t = 0 := Fin.ext ht
  simp only [tlogit_eq, ht0, ht, Nat.zero_add]
  exact psum_one _ c'

/-- A later point extends the sum by its tile, moving the shift. -/
theorem advance (c : Dev nD) (hx : ∀ j, xarr m c j = ((xr j : ℝ) : EReal)) (hw : ∀ j, warr m c j = ((wr j : ℝ) : EReal))
    (t : Fin cfg0.N) (q : Fin 2048) (M L : Vec Ideal S2048x1 .f32) (cc : ℝ)
    (hM : M (ix2 q (0 : Fin 1)) = ((cc : ℝ) : EReal))
    (hL : L (ix2 q (0 : Fin 1)) = ((psum (logit xr wr (rowOf t q)) (t.val % 15) cc : ℝ) : EReal)) :
    ∃ c' : ℝ, Pieces.newMax (xblk m c t) (wblk m c t) M (ix2 q (0 : Fin 1)) = ((c' : ℝ) : EReal)
      ∧ Pieces.newSum (xblk m c t) (wblk m c t) M L (ix2 q (0 : Fin 1))
          = ((psum (logit xr wr (rowOf t q)) (t.val % 15 + 1) c' : ℝ) : EReal) := by
  obtain ⟨c', h1, h2⟩ := next_step (xblk m c t) (wblk m c t) (xbOf xr t) (wbOf wr t) (xblk_real m xr c hx t) (wblk_real m wr c hw t)
    q M L cc _ hM hL
  refine ⟨c', h1, h2.trans (congrArg _ ?_)⟩
  simp only [tlogit_eq]
  exact psum_succ (logit xr wr (rowOf t q)) (tileOf t) cc c'

/-! ## The invariant -/

/-- After point `n`, row `q` of the first scratch is a real `c` and row `q` of the second is the sum of `exp (s − c)` over the
    tiles read so far of that row's similarities. -/
theorem scratch_inv (c : Dev nD) (hx : ∀ j, xarr m c j = ((xr j : ℝ) : EReal)) (hw : ∀ j, warr m c j = ((wr j : ℝ) : EReal)) :
    ∀ (n : ℕ) (hn : n < cfg0.N) (q : Fin 2048), ∃ cc : ℝ,
      (outsAt0 m c n hn).2.1 (ix2 q (0 : Fin 1)) = ((cc : ℝ) : EReal)
      ∧ (outsAt0 m c n hn).2.2 (ix2 q (0 : Fin 1)) = ((psum (logit xr wr (rowOf ⟨n, hn⟩ q)) (n % 15 + 1) cc : ℝ) : EReal) := by
  intro n
  induction n with
  | zero =>
    intro hn q
    obtain ⟨e1, e2⟩ := outs_first m c ⟨0, hn⟩ rfl (show ¬(0 % 15 = 14) by decide)
    obtain ⟨c', s1, s2⟩ := start m xr wr c hx hw ⟨0, hn⟩ rfl q
    exact ⟨c', (congrFun e1 _).trans s1, (congrFun e2 _).trans s2⟩
  | succ n ih =>
    intro hn q
    have hN : n + 1 < 30 := lt_of_lt_of_eq hn (show cfg0.N = 30 from N_0)
    by_cases h0 : (n + 1) % 15 = 0
    · obtain ⟨e1, e2⟩ := outs_first m c ⟨n + 1, hn⟩ h0 (by show ¬(n + 1) % 15 = 14; omega)
      obtain ⟨c', s1, s2⟩ := start m xr wr c hx hw ⟨n + 1, hn⟩ h0 q
      exact ⟨c', (congrFun e1 _).trans s1, (congrFun e2 _).trans s2⟩
    · obtain ⟨cc, i1, i2⟩ := ih (Nat.lt_of_succ_lt hn) q
      have hrow : rowOf ⟨n, Nat.lt_of_succ_lt hn⟩ q = rowOf ⟨n + 1, hn⟩ q := Fin.ext (by show 2048 * (n / 15) + q.val = 2048 * ((n + 1) / 15) + q.val; omega)
      have hcnt : n % 15 + 1 = (n + 1) % 15 := by omega
      rw [hrow, hcnt] at i2
      obtain ⟨c', s1, s2⟩ := advance m xr wr c hx hw ⟨n + 1, hn⟩ q (prev m c ⟨n + 1, hn⟩).2.1 (prev m c ⟨n + 1, hn⟩).2.2 cc i1 i2
      by_cases h1 : (n + 1) % 15 = 14
      · obtain ⟨e1, e2, -⟩ := outs_last m c ⟨n + 1, hn⟩ h0 h1
        exact ⟨c', (congrFun e1 _).trans s1, (congrFun e2 _).trans s2⟩
      · obtain ⟨e1, e2⟩ := outs_mid m c ⟨n + 1, hn⟩ h0 h1
        exact ⟨c', (congrFun e1 _).trans s1, (congrFun e2 _).trans s2⟩

end Cert.KernelIdeal.Inv
end
-- ==== Proof.KerFinal.lean ====
import proofs.«406967_j32916629357083_1_alg».proof.Proof.KerInv

/-! # The array the region leaves: every row's log-sum-exp

The output window is written back only at a row block's last point. What that point stores in row `q` is
`c + log l` with `l = ∑ exp (s p − c)` over all fifteen tiles of the row's similarities `s`: the row's log-sum-exp,
whatever the shift `c`. The two row blocks' last points cover the column, so the array ends as the column of
`lse (logit x w r)`. -/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Oim Cert.KernelIdeal.Step Cert.KernelIdeal.Inv

variable (m : (ℓ : Loc nD τ sig) → Buf (Elt Ideal) ℓ) (xr : SX.Idx → ℝ) (wr : SW.Idx → ℝ)

/-- The column of row log-sum-exps. -/
def lseCol : Vec Ideal S4096x1 .f32 := fun i => ((lse (logit xr wr ⟨(i 0).val, idx2_lt0 i⟩) : ℝ) : EReal)

/-- What a row block's last point stores in row `q` of the output block. -/
theorem out_row (c : Dev nD) (hx : ∀ j, xarr m c j = ((xr j : ℝ) : EReal)) (hw : ∀ j, warr m c j = ((wr j : ℝ) : EReal))
    (t : Fin cfg0.N) (h14 : t.val % 15 = 14) (q : Fin 2048) :
    (outsAt0 m c t.val t.isLt).1 (ix2 q (0 : Fin 1)) = ((lse (logit xr wr (rowOf t q)) : ℝ) : EReal) := by
  obtain ⟨e1, e2, e3⟩ := outs_last m c t (by omega) h14
  obtain ⟨cc, i1, i2⟩ := scratch_inv m xr wr c hx hw t.val t.isLt q
  rw [e1] at i1
  rw [e2, h14] at i2
  rw [e3]
  refine (out_step q _ _ cc _ (psum_pos _ 15 (by norm_num) cc) i1 i2).trans (congrArg _ ?_)
  exact shift_psum _ cc

/-- An index of the column is in point `t`'s block iff each coordinate is in the block's range on its axis. -/
theorem mem_blk (t : Fin cfg0.N) (i : S4096x1.Idx) :
    i ∈ ((cfg0.win 2).blk t).view.set ↔ ∀ a : Fin 2, win0_2.index t a * S2048x1.size a ≤ (i a).val
      ∧ (i a).val < win0_2.index t a * S2048x1.size a + S2048x1.size a := by
  show i ∈ ((View.whole main_v0).slice (win0_2.rect t)).set ↔ _
  rw [View.set_slice_whole, Rect.mem_set_unit]
  exact Iff.rfl

/-- WHAT A ROW BLOCK'S LAST POINT WRITES BACK is its block of the column of log-sum-exps. -/
theorem flushed_eq (c : Dev nD) (hx : ∀ j, xarr m c j = ((xr j : ℝ) : EReal)) (hw : ∀ j, warr m c j = ((wr j : ℝ) : EReal))
    (t : Fin cfg0.N) (hf : (cfg0.win 2).flush t = true) :
    (dats m 0 c).flushed 2 t = ((cfg0.win 2).blk t).view.read (Elt Ideal) (lseCol xr wr) := by
  have h14 : t.val % 15 = 14 := (flush0_2 t).mp hf
  show (cfg0.win 2).cut (grid0.coords t) ((dats m 0 c).after 2 t) = _
  rw [after0_2]
  funext y
  obtain ⟨q, z, rfl⟩ : ∃ (q : Fin 2048) (z : Fin 1), y = ix2 q z := ⟨y 0, y 1, eq_ix2 y⟩
  obtain rfl : z = 0 := Subsingleton.elim _ _
  show (outsAt0 m c t.val t.isLt).1 (ix2 q (0 : Fin 1)) = lseCol xr wr (((cfg0.win 2).blk t).view.emb (ix2 q (0 : Fin 1)))
  rw [out_row m xr wr c hx hw t h14 q]
  unfold lseCol
  refine congrArg (fun r => ((lse (logit xr wr r) : ℝ) : EReal)) (Fin.ext ?_)
  show 2048 * (t.val / 15) + q.val = win0_2.index t (0 : Fin 2) * 2048 + 1 * q.val
  rw [idx20]; omega

/-- The two row blocks' last points cover the column. -/
theorem cover (i : S4096x1.Idx) : ∃ t : Fin cfg0.N, (cfg0.win 2).flush t = true ∧ i ∈ ((cfg0.win 2).blk t).view.set := by
  have hi0 : (i 0).val < 4096 := idx2_lt0 i
  have hi1 : (i 1).val < 1 := idx2_lt1 i
  have hN : cfg0.N = 30 := N_0
  have ht : 15 * ((i 0).val / 2048) + 14 < cfg0.N := by rw [hN]; omega
  refine ⟨⟨15 * ((i 0).val / 2048) + 14, ht⟩, (flush0_2 _).mpr (by show (15 * ((i 0).val / 2048) + 14) % 15 = 14; omega), ?_⟩
  rw [mem_blk]
  intro a
  match a with
  | ⟨0, _⟩ =>
    show win0_2.index ⟨15 * ((i 0).val / 2048) + 14, ht⟩ (0 : Fin 2) * 2048 ≤ (i 0).val
      ∧ (i 0).val < win0_2.index ⟨15 * ((i 0).val / 2048) + 14, ht⟩ (0 : Fin 2) * 2048 + 2048
    rw [idx20]; show (15 * ((i 0).val / 2048) + 14) / 15 * 2048 ≤ _ ∧ _ < (15 * ((i 0).val / 2048) + 14) / 15 * 2048 + 2048; omega
  | ⟨1, _⟩ =>
    show win0_2.index ⟨15 * ((i 0).val / 2048) + 14, ht⟩ (1 : Fin 2) * 1 ≤ (i 1).val
      ∧ (i 1).val < win0_2.index ⟨15 * ((i 0).val / 2048) + 14, ht⟩ (1 : Fin 2) * 1 + 1
    rw [idx21]; omega

/-- THE ARRAY after the run: the column of row log-sum-exps. -/
theorem final (c : Dev nD) (hx : ∀ j, xarr m c j = ((xr j : ℝ) : EReal)) (hw : ∀ j, warr m c j = ((wr j : ℝ) : EReal)) :
    (dats m 0 c).arrAt 2 cfg0.N = lseCol xr wr :=
  (dats m 0 c).arrAt_eq_of_cover 2 (lseCol xr wr) (fun t hf => flushed_eq m xr wr c hx hw t hf) cover

end Cert.KernelIdeal.Final

end
-- ==== Proof.LibGatherRow.lean ====
import Idealize.ShloMosaic.PureOps.ShapeOps
import Idealize.ShloMosaic.Lib.ValueIdx

/-! # A gather that takes rows of a table, read at an index

`Host.gather d x idx j = x (d.operandIdx j idx)`: on each operand axis the operand index is the clamped start plus the
batching coordinate plus the offset coordinate. Worked out here, at any extents, for the rows of a rank-2 table: operand
`[N, C]`, start indices `[K, 1]` (the index vector on axis 1), result `[K, C]`; the row axis is gathered (collapsed, one
row per start index) and the column axis is the one offset axis, read whole. Result entry `(k, j)` is the table's entry
`(r, j)` with `r` the start index `idx[k, 0]` read as a SIGNED integer and CLAMPED into `[0, N − 1]`
(`gather_rowTake_apply`); for a start index already inside the table the clamp does nothing
(`gather_rowTake_apply_of_lt`). Both are stated for ANY dimension-number record with these fields, the field equations
taken as hypotheses (each is `rfl` at a literal record), and again at the literal record `rowTakeDims`. -/

namespace Idealize.ShloMosaic.GatherRow

open Idealize.ShloMosaic Idealize.ShloMosaic.ValueIdx

/-- A signed word that is non-negative and below `N`, clamped into `[0, N - 1]`, is its own value. -/
theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

/-- The dimension numbers of a row take: operand `[N, C]`, start indices `[K, 1]`, result `[K, C]`; axis 0 of the operand
    is gathered (collapsed, slice size 1), axis 1 is the offset axis (slice size `C`). Their conditions `wf` are decided
    on a program's literal shapes. -/
abbrev rowTakeDims (N K C : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- The operand index of a row take on the row axis: the start index `idx[k, 0]` read signed and clamped into
    `[0, N − 1]` (the axis is in the start index map, its slice size is `1`), with no batching and no offset coordinate
    (the axis is collapsed). -/
theorem operandIdx_row {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (0 : Fin 2) + (rowTakeDims N K C wf).batchCoord (ix2 k j) (0 : Fin 2)
      + (rowTakeDims N K C wf).offCoord (ix2 k j) (0 : Fin 2) = min (idx (ix2 k (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowTakeDims N K C wf).startIndexMap from List.mem_singleton.mpr rfl)]
  have hsi : (rowTakeDims N K C wf).siIdx (ix2 k j) ⟨List.idxOf (0 : Fin 2) (rowTakeDims N K C wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

/-- The operand index of a row take on the column axis: the result's own column `j` (the axis is the one the offset axis
    reads), with start `0` (the start index map does not name the axis) and no batching coordinate. -/
theorem operandIdx_col {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (1 : Fin 2) + (rowTakeDims N K C wf).batchCoord (ix2 k j) (1 : Fin 2)
      + (rowTakeDims N K C wf).offCoord (ix2 k j) (1 : Fin 2) = j.val := by
  have h10 : (1 : Fin 2) ∉ [(0 : Fin 2)] := by decide
  have hst : (rowTakeDims N K C wf).start (ix2 k j) idx (1 : Fin 2) = 0 := by
    unfold GatherDims.start
    rw [dif_neg (show ¬ (1 : Fin 2) ∈ (rowTakeDims N K C wf).startIndexMap from h10)]
  have hoff : (rowTakeDims N K C wf).offCoord (ix2 k j) (1 : Fin 2) = j.val := by
    unfold GatherDims.offCoord
    rw [dif_pos ((GatherDims.mem_sKept _ _).mpr ⟨h10, List.not_mem_nil⟩)]
    rfl
  rw [GatherDims.batchCoord_eq_zero _ _ _ List.not_mem_nil, hst, hoff, Nat.add_zero, Nat.zero_add]

/-- THE ROW TAKE AT THE LITERAL RECORD, READ AT `(k, j)`: the operand's entry `(r, j)`, `r` the start index `idx[k, 0]`
    read signed and clamped into `[0, N − 1]`: the operand index coordinate by coordinate. -/
theorem gather_rowTakeDims_apply {N K C w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (j : Fin C) :
    Host.gather (rowTakeDims N K C wf) x idx (ix2 k j)
      = x (ix2 ⟨min (idx (ix2 k (0 : Fin 1))).toInt.toNat (N - 1), by omega⟩ j) := by
  unfold Host.gather
  congr 1
  funext a
  refine Fin.ext ?_
  match a with
  | ⟨0, _⟩ => exact operandIdx_row wf idx k j
  | ⟨1, _⟩ => exact operandIdx_col wf idx k j

/-- THE ROW TAKE AT ANY RECORD WITH THESE FIELDS, READ AT `(k, j)`: a record is its fields, so it is the literal one. -/
theorem gather_rowTake_apply {N K C w : Nat} (hN : 0 < N)
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C) :
    Host.gather d x idx (ix2 k j)
      = x (ix2 ⟨min (idx (ix2 k (0 : Fin 1))).toInt.toNat (N - 1), by omega⟩ j) := by
  obtain ⟨od, cd, ob, sb, sm, iv, ss, wf⟩ := d
  simp only at ho hc hb hsb hm hv hs
  subst ho hc hb hsb hm hv hs
  exact gather_rowTakeDims_apply hN wf x idx k j

/-- The same for a start index inside the table: the clamp does nothing, and the row read is the one the index names. -/
theorem gather_rowTake_apply_of_lt {N K C w : Nat}
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C)
    (h0 : 0 ≤ (idx (ix2 k (0 : Fin 1))).toInt) (hlt : (idx (ix2 k (0 : Fin 1))).toInt < (N : Int)) :
    Host.gather d x idx (ix2 k j) = x (ix2 ⟨(idx (ix2 k (0 : Fin 1))).toInt.toNat, by omega⟩ j) := by
  rw [gather_rowTake_apply (by omega) d ho hc hb hsb hm hv hs x idx k j]
  congr 2
  exact Fin.ext (clamp_of_lt _ h0 hlt)

end

end Idealize.ShloMosaic.GatherRow
-- ==== Proof.LibTakeFill.lean ====
/-
  `jnp.take` in its default mode ("fill") against plain indexing `x[idx]`, on the host.

  Both spellings first wrap a negative index word `v` to `v + N` (`N` the indexed axis's extent). Plain indexing then
  gathers. `jnp.take` also gathers, but it keeps the gathered value only where the wrapped word `w` passes the range
  test `0 ≤ w ∧ w ≤ N - 1` (an `and`-reduction of the test over the start-index vector's one component) and puts a fill
  value elsewhere. When every index word lies in `[-N, N)` — NumPy's own domain for the axis — every wrapped word is
  in `[0, N)`, the test passes everywhere, and the select is its first branch: the two spellings are one term.

  Stated over the library only: the wrap of one word (`wrapWord_range`), an `and`-reduction of all-ones
  (`reduce_andi_of_all`), a select under an all-ones mask (`select_of_all_one`), the range test's mask
  (`rangeMask_all_one`), and the two spellings as they print (`take_fill_eq_gather`).
-/
import Idealize.ShloMosaic.Lib.Affine
import Idealize.ShloMosaic.Lib.ReduceAll
import Idealize.ShloMosaic.Lib.ValueIdx
import Idealize.ShloMosaic.PureOps

namespace Idealize.ShloMosaic.TakeFill

open Idealize.ShloMosaic

/-- NumPy's wrap of one index word on an axis of extent `N`: `v + N` when `v` is negative, else `v`. -/
def wrapWord (N v : BitVec 32) : BitVec 32 := Scalar.select (IntOp.cmpi .slt v 0#32) (IntOp.addi v N) v

/-- A word in `[-N, N)` wraps into `[0, N)` (no 32-bit overflow for an extent below 2³⁰). -/
theorem wrapWord_range (N : Nat) (hN : N < 2 ^ 30) (v : BitVec 32) (h1 : -(N : Int) ≤ v.toInt) (h2 : v.toInt < N) :
    0 ≤ (wrapWord (BitVec.ofNat 32 N) v).toInt ∧ (wrapWord (BitVec.ofNat 32 N) v).toInt < N := by
  have hNi : (BitVec.ofNat 32 N).toInt = N := by
    rw [BitVec.toInt_ofNat']; unfold Int.bmod; dsimp only; split <;> omega
  unfold wrapWord
  by_cases hv : v.toInt < 0
  · have hc : IntOp.cmpi .slt v 0#32 = 1#1 := IntOp.cmpi_slt.2 (by simpa using hv)
    rw [hc, ValueIdx.select_one]
    have : (IntOp.addi v (BitVec.ofNat 32 N)).toInt = v.toInt + N := by
      unfold IntOp.addi; rw [BitVec.toInt_add, hNi]; unfold Int.bmod; dsimp only; split <;> omega
    omega
  · have hc : IntOp.cmpi .slt v 0#32 = 0#1 :=
      ValueIdx.eq_zero_of_ne_one fun h => hv (by simpa using IntOp.cmpi_slt.1 h)
    rw [hc, ValueIdx.select_zero]
    omega

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_of_all f l _ (IntOp.andi_eq_one.2 ⟨h, hl a (List.mem_cons_self ..)⟩)
      fun n hn => hl n (List.mem_cons_of_mem _ hn)

/-- `jnp.all` along any axes of an all-ones mask, from the initial value 1, is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_of_all x _ _ (hinit _) fun n _ => hx n

/-- A select whose mask is 1 everywhere is its first branch. -/
theorem select_of_all_one {α : Type} {s : Shape} (c : IVec s 1) (a b : s.Idx → α) (hc : ∀ i, c i = 1#1) : select c a b = a := by
  funext i
  rw [ValueIdx.select_apply, hc i, ValueIdx.select_one]

/-- The range test `lo ≤ w ∧ w ≤ hi` (signed), `and`-reduced along any axes and broadcast along any axes, is 1 everywhere
    when every word of `w` passes it. -/
theorem rangeMask_all_one {s t u r : Shape} {axes : List (Fin s.rank)} (w lo hi : IVec s 32) (init : u.Idx → BitVec 1)
    (h : s.ReducesTo axes t) (hu : 0 < u.numel) (dims : Fin t.rank → Fin r.rank) (hb : t.BroadcastsInDim r dims)
    (hinit : ∀ k, init k = 1#1) (hlo : ∀ i, (lo i).toInt ≤ (w i).toInt) (hhi : ∀ i, (w i).toInt ≤ (hi i).toInt) (j : r.Idx) :
    broadcastInDim r dims hb (Host.reduce IntOp.andi (andi (cmpi .sge w lo) (cmpi .sle w hi)) init h hu) j = 1#1 := by
  unfold broadcastInDim
  exact reduce_andi_of_all _ _ h hu hinit
    (fun i => IntOp.andi_eq_one.2 ⟨IntOp.cmpi_sge.2 (hlo i), IntOp.cmpi_sle.2 (hhi i)⟩) _

/-- The start-index column both spellings gather with: the index words wrapped, laid out along `dims₁`. -/
def wrapped {s₁ s₂ : Shape} (N : Nat) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (idx : IVec s₁ 32) : IVec s₂ 32 :=
  broadcastInDim s₂ dims₁ b₁ (select (cmpi .slt idx (broadcastInDim s₁ dims₀ b₀ (constantI ⟨0, ![]⟩ 32 0#32)))
    (addi idx (broadcastInDim s₁ dims₀ b₀' (constantI ⟨0, ![]⟩ 32 (BitVec.ofNat 32 N)))) idx)

/-- Every word of the start-index column is the wrap of an index word. -/
theorem wrapped_apply {s₁ s₂ : Shape} (N : Nat) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (idx : IVec s₁ 32) (i : s₂.Idx) : ∃ k : s₁.Idx, wrapped N dims₀ b₀ b₀' dims₁ b₁ idx i = wrapWord (BitVec.ofNat 32 N) (idx k) :=
  ⟨_, rfl⟩

/-- `jnp.take(x, idx, axis = 0)` in fill mode as it prints: the rows gathered at the wrapped start indices where the range
    test `lo ≤ w ∧ w ≤ hi` holds of the wrapped word (reduced by `and` along `axes` from `init`, broadcast along `dims₅`),
    the fill value elsewhere. -/
def takeFill {α : Type} {sx s₁ s₂ s₃ so u : Shape} {axes : List (Fin s₂.rank)} (d : GatherDims sx s₂ so)
    (N : Nat) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (lo hi : IVec s₂ 32) (init : u.Idx → BitVec 1) (hred : s₂.ReducesTo axes s₃) (hu : 0 < u.numel)
    (dims₅ : Fin s₃.rank → Fin so.rank) (b₅ : s₃.BroadcastsInDim so dims₅)
    (x : sx.Idx → α) (fill : so.Idx → α) (idx : IVec s₁ 32) : so.Idx → α :=
  select (broadcastInDim so dims₅ b₅ (Host.reduce IntOp.andi
      (andi (cmpi .sge (wrapped N dims₀ b₀ b₀' dims₁ b₁ idx) lo) (cmpi .sle (wrapped N dims₀ b₀ b₀' dims₁ b₁ idx) hi)) init hred hu))
    (Host.gather d x (wrapped N dims₀ b₀ b₀' dims₁ b₁ idx)) fill

/-- **`jnp.take` in fill mode is the plain gather on in-range indices.** With every index word in `[-N, N)` the range
    test `0 ≤ w ≤ N − 1` of the wrapped start indices passes everywhere, so the select between the gathered rows and the
    fill value is the gathered rows. (`lo` and `hi` are the two bounds as they are broadcast; `init` the reduction's 1.) -/
theorem take_fill_eq_gather {α : Type} {sx s₁ s₂ s₃ so u : Shape} {axes : List (Fin s₂.rank)} (d : GatherDims sx s₂ so)
    (N : Nat) (hN : N < 2 ^ 30) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (lo hi : IVec s₂ 32) (hlo : ∀ i, (lo i).toInt = 0) (hhi : ∀ i, (hi i).toInt = (N : Int) - 1)
    (init : u.Idx → BitVec 1) (hinit : ∀ k, init k = 1#1) (hred : s₂.ReducesTo axes s₃) (hu : 0 < u.numel)
    (dims₅ : Fin s₃.rank → Fin so.rank) (b₅ : s₃.BroadcastsInDim so dims₅)
    (x : sx.Idx → α) (fill : so.Idx → α) (idx : IVec s₁ 32)
    (hr : ∀ k, -(N : Int) ≤ (idx k).toInt ∧ (idx k).toInt < N) :
    takeFill d N dims₀ b₀ b₀' dims₁ b₁ lo hi init hred hu dims₅ b₅ x fill idx
      = Host.gather d x (wrapped N dims₀ b₀ b₀' dims₁ b₁ idx) := by
  unfold takeFill
  refine select_of_all_one _ _ _ fun j => rangeMask_all_one _ lo hi init hred hu dims₅ b₅ hinit (fun i => ?_) (fun i => ?_) j
  · obtain ⟨k, hk⟩ := wrapped_apply N dims₀ b₀ b₀' dims₁ b₁ idx i
    rw [hk, hlo i]; exact (wrapWord_range N hN _ (hr k).1 (hr k).2).1
  · obtain ⟨k, hk⟩ := wrapped_apply N dims₀ b₀ b₀' dims₁ b₁ idx i
    rw [hk, hhi i]; have := (wrapWord_range N hN _ (hr k).1 (hr k).2).2; omega

end Idealize.ShloMosaic.TakeFill
-- ==== Proof.KerHost.lean ====
import proofs.«406967_j32916629357083_1_alg».proof.Proof.KerTail
import proofs.«406967_j32916629357083_1_alg».proof.Proof.Spec
import proofs.«406967_j32916629357083_1_alg».proof.Proof.Consts
import proofs.«406967_j32916629357083_1_alg».proof.Proof.LibGatherRow
import proofs.«406967_j32916629357083_1_alg».proof.Proof.LibTakeFill
import proofs.«406967_j32916629357083_1_alg».proof.Proof.OnlineLse
import Idealize.ShloMosaic.Lib.Pipeline.Value
import Idealize.ShloMosaic.Lib.ValueIdx
import Idealize.ShloMosaic.Lib.ValueLayout
import Idealize.ShloMosaic.PureOps.Ideal.Laws

/-! # The kernel's negative log-likelihood of a row

With real features and a real table, a log-sum-exp column holding `lse (logit x w r)` in row `r`, and a class word that
wraps to the class `p`, the host lines after the region leave `lse (logit x w r) − logit x w r p` in row `r`: the reshape
reads the column's row, the row gather reads row `p` of the table (the wrapped word is in range, so the gather's clamp
does nothing), and the sum over the 256 features times 30 is the scaled similarity. -/

noncomputable section

namespace Cert.KernelIdeal.Host

open Idealize.ShloMosaic Idealize.ShloMosaic.ValueIdx Cert.KernelIdeal Cert.KernelIdeal.Gen Cert.Oim

/-- The start-index column the row gather reads, at row `r`: the row's class word, wrapped. -/
theorem col_wrap_apply (lab : IVec S4096 32) (r : Fin 4096) :
    Tail.col (Tail.wrapRows lab) (ix2 r (0 : Fin 1)) = TakeFill.wrapWord 15000#32 (lab (ix1 r)) := by
  unfold Tail.col
  rw [broadcastInDim_apply _ bcast_S4096_S4096x1_0 (Tail.wrapRows lab) (ix2 r (0 : Fin 1)) (ix1 r) (fun a => match a with
    | ⟨0, _⟩ => by show r.val = if (4096 : Nat) = 1 then 0 else r.val; rw [if_neg (by decide)])]
  rfl

/-- Row `r` of the kernel's negative log-likelihood. -/
theorem nll_apply (lseA : FVec Ideal S4096x1 .f32) (x : FVec Ideal S4096x256 .f32) (lut : FVec Ideal S15000x256 .f32)
    (lab : IVec S4096 32) (xr : SX.Idx → ℝ) (wr : SW.Idx → ℝ)
    (hx : ∀ j, x j = ((xr j : ℝ) : EReal)) (hw : ∀ j, lut j = ((wr j : ℝ) : EReal)) (r : Fin 4096)
    (hl : lseA (ix2 r (0 : Fin 1)) = ((lse (logit xr wr r) : ℝ) : EReal))
    (p : Fin 15000) (hp : (TakeFill.wrapWord 15000#32 (lab (ix1 r))).toInt = (p.val : Int)) :
    Tail.nll (F := Ideal) lseA x lut lab (ix1 r) = ((Cert.Oim.nll xr wr r p : ℝ) : EReal) := by
  have hcol := col_wrap_apply lab r
  -- the wrapped word is the class number, so it lies inside the table
  have h0 : 0 ≤ (Tail.col (Tail.wrapRows lab) (ix2 r (0 : Fin 1))).toInt := by
    rw [hcol, hp]; exact Int.natCast_nonneg _
  have hlt : (Tail.col (Tail.wrapRows lab) (ix2 r (0 : Fin 1))).toInt < ((15000 : Nat) : Int) := by
    rw [hcol, hp]; exact_mod_cast p.isLt
  -- the gathered row is row `p` of the table
  have hrow : ∀ k : Fin 256, Tail.targetRow (F := Ideal) lut lab (ix2 r k) = lut (ix2 p k) := by
    intro k
    unfold Tail.targetRow
    rw [GatherRow.gather_rowTake_apply_of_lt gather_S15000x256_S4096x1_S4096x256_1_0_n_n_0_1_1256 rfl rfl rfl rfl rfl rfl rfl lut
      (Tail.col (Tail.wrapRows lab)) r k h0 hlt]
    congr 2
    apply Fin.ext
    show (Tail.col (Tail.wrapRows lab) (ix2 r (0 : Fin 1))).toInt.toNat = p.val
    rw [hcol, hp]; exact Int.toNat_natCast _
  -- the reshape reads the column's row
  have hA : shapeCast S4096 lseA shapeCasts_S4096x1_S4096 (ix1 r) = lseA (ix2 r (0 : Fin 1)) :=
    shapeCast_apply lseA shapeCasts_S4096x1_S4096 (ix1 r) (ix2 r (0 : Fin 1))
      (by rewrite [Shape.rowMajor_val_two, Shape.rowMajor_val_one]; show r.val * 1 + 0 = r.val; omega)
  -- the sum over the feature axis, at row `r`
  have hsum : ∀ y : FVec Ideal S4096x256 .f32,
      Host.reduceAdd y (constant S_ .f32 0x00000000#32) reducesTo_S4096x256_S4096_d1 h_S_ (ix1 r)
        = Ideal.ofBits .f32 0x00000000#32 + ∑ k : Fin 256, y (ix2 r k) := by
    intro y
    simp only [Host.reduceAdd, Ideal.hostReduceAdd_def]
    rw [Ideal.hostReduceAdd_single reducesTo_S4096x256_S4096_d1 (by decide)]
    refine congrArg (_ + ·) (Finset.sum_congr rfl fun k _ => ?_)
    exact congrArg y (funext fun a => Fin.ext (by match a with | ⟨0, _⟩ => rfl | ⟨1, _⟩ => rfl))
  -- thirty times the inner product with row `p`
  have hB : Tail.targetLogit (F := Ideal) x lut lab (ix1 r) = ((logit xr wr r p : ℝ) : EReal) := by
    unfold Tail.targetLogit
    show (Host.reduceAdd (mulf x (Tail.targetRow lut lab)) (constant S_ .f32 0x00000000#32) reducesTo_S4096x256_S4096_d1 h_S_ (ix1 r) : EReal)
      * Ideal.ofBits .f32 0x41F00000#32 = _
    rw [hsum, ofBits_zero, ofBits_thirty, zero_add]
    unfold logit
    rw [EReal.coe_mul, coe_sum]
    congr 1
    refine Finset.sum_congr rfl fun k _ => ?_
    show (x (ix2 r k) : EReal) * Tail.targetRow (F := Ideal) lut lab (ix2 r k) = _
    rw [hrow k, hx, hw, EReal.coe_mul]
  show (shapeCast S4096 lseA shapeCasts_S4096x1_S4096 (ix1 r) : EReal) - Tail.targetLogit (F := Ideal) x lut lab (ix1 r) = _
  rw [hA, hl, hB]
  unfold Cert.Oim.nll
  rw [EReal.coe_sub]

end Cert.KernelIdeal.Host

end
-- ==== Proof.LibGatherRows.lean ====
import Idealize.ShloMosaic.PureOps.ShapeOps
import Idealize.ShloMosaic.Lib.ValueIdx

/-! A row-wise take: a gather whose operand [R, C] and start indices [R, P, 1] share their first axis as a batching axis,
    and whose one-component start index names the operand's column. Result element (r, p) is the operand's row r at
    the column idx[r, p, 0], read signed and clamped into [0, C - 1]. -/

namespace Cert.GatherRows

open Idealize.ShloMosaic Idealize.ShloMosaic.ValueIdx

variable {α : Type} {R C P w : Nat}

/-- THE ROW-WISE TAKE READ AT (r, p): the operand's row r at the column idx[r, p, 0], read signed and clamped into
    [0, C - 1]. The row axis is a batching axis (start 0, batching coordinate the result's row, no offset); the column
    axis is collapsed (the clamped start index, no batching coordinate, no offset). -/
theorem gather_rows_apply (hC : 0 < C) (d : GatherDims ⟨2, ![R, C]⟩ ⟨3, ![R, P, 1]⟩ ⟨2, ![R, P]⟩)
    (h1 : d.offsetDims = []) (h2 : d.collapsedSliceDims = [1]) (h3 : d.operandBatchingDims = [0])
    (h4 : d.startIndicesBatchingDims = [0]) (h5 : d.startIndexMap = [1]) (h6 : d.indexVectorDim = 2)
    (h7 : d.sliceSizes = ![1, 1])
    (x : (⟨2, ![R, C]⟩ : Shape).Idx → α) (idx : IVec ⟨3, ![R, P, 1]⟩ w) (r : Fin R) (p : Fin P) :
    Host.gather d x idx (ix2 r p)
      = x (ix2 r ⟨min (idx (ix3 r p (0 : Fin 1))).toInt.toNat (C - 1), by omega⟩) := by
  obtain ⟨od, cs, ob, sb, sim, iv, ss, wf⟩ := d
  simp only at h1 h2 h3 h4 h5 h6 h7
  subst h1 h2 h3 h4 h5 h6 h7
  unfold Host.gather
  congr 1
  funext a
  refine Fin.ext ?_
  have m00 : (0 : Fin 2) ∈ ([0] : List (Fin 2)) := List.mem_singleton.mpr rfl
  have m11 : (1 : Fin 2) ∈ ([1] : List (Fin 2)) := List.mem_singleton.mpr rfl
  have n10 : (1 : Fin 2) ∉ ([0] : List (Fin 2)) := by decide
  match a with
  | ⟨0, _⟩ =>
    show GatherDims.start _ (ix2 r p) idx 0 + GatherDims.batchCoord _ (ix2 r p) 0 + GatherDims.offCoord _ (ix2 r p) 0 = r.val
    rw [GatherDims.start_batching _ _ _ _ m00,
      GatherDims.offCoord_eq_zero _ _ _ (fun h => ((GatherDims.mem_sKept _ _).mp h).2 m00)]
    unfold GatherDims.batchCoord
    rw [dif_pos m00]
    simp only [Nat.zero_add, Nat.add_zero]
    rfl
  | ⟨1, _⟩ =>
    show GatherDims.start _ (ix2 r p) idx 1 + GatherDims.batchCoord _ (ix2 r p) 1 + GatherDims.offCoord _ (ix2 r p) 1 = _
    rw [GatherDims.batchCoord_eq_zero _ _ _ n10,
      GatherDims.offCoord_eq_zero _ _ _ (fun h => ((GatherDims.mem_sKept _ _).mp h).1 m11)]
    simp only [Nat.add_zero]
    unfold GatherDims.start
    rw [dif_pos m11]
    have hsi : ∀ c, GatherDims.siIdx (s := ⟨2, ![R, C]⟩) (si := ⟨3, ![R, P, 1]⟩) (t := ⟨2, ![R, P]⟩)
        ⟨[], [1], [0], [0], [1], 2, ![1, 1], wf⟩ (ix2 r p) c = ix3 r p (0 : Fin 1) := by
      intro c
      funext b; refine Fin.ext ?_
      match b with
      | ⟨0, _⟩ => rfl
      | ⟨1, _⟩ => rfl
      | ⟨2, _⟩ => have := c.isLt; simp only [List.length_singleton] at this; show c.val = 0; omega
    rw [hsi]
    rfl

/-- The row-wise take read at (r, p) when the start index idx[r, p, 0], read signed, is a column's number: the
    operand's entry at row r and that column. -/
theorem gather_rows_apply_of_lt (d : GatherDims ⟨2, ![R, C]⟩ ⟨3, ![R, P, 1]⟩ ⟨2, ![R, P]⟩)
    (h1 : d.offsetDims = []) (h2 : d.collapsedSliceDims = [1]) (h3 : d.operandBatchingDims = [0])
    (h4 : d.startIndicesBatchingDims = [0]) (h5 : d.startIndexMap = [1]) (h6 : d.indexVectorDim = 2)
    (h7 : d.sliceSizes = ![1, 1])
    (x : (⟨2, ![R, C]⟩ : Shape).Idx → α) (idx : IVec ⟨3, ![R, P, 1]⟩ w) (r : Fin R) (p : Fin P)
    (h0 : 0 ≤ (idx (ix3 r p (0 : Fin 1))).toInt) (hlt : (idx (ix3 r p (0 : Fin 1))).toInt < (C : Int)) :
    Host.gather d x idx (ix2 r p) = x (ix2 r ⟨(idx (ix3 r p (0 : Fin 1))).toInt.toNat, by omega⟩) := by
  have hC : 0 < C := by omega
  rw [gather_rows_apply hC d h1 h2 h3 h4 h5 h6 h7 x idx r p]
  congr 2
  apply Fin.ext
  show min (idx (ix3 r p (0 : Fin 1))).toInt.toNat (C - 1) = (idx (ix3 r p (0 : Fin 1))).toInt.toNat
  omega

end Cert.GatherRows
-- ==== Proof.LibMaskAll.lean ====
/- Masks that are true everywhere.  A `jnp.take` in fill mode selects, entry by entry, between the gathered value and a
   fill, by a mask that says the index was in range; when every index is in range the mask is 1 everywhere and the
   selection is the gathered array.  The facts below are the generic half of that: a reduction by `and` of an array
   of ones is one, a selection by an all-ones (all-zeros) mask is its first (second) branch, and what the three signed
   comparisons answer for a 32-bit word known to lie in `[0, N)`. -/
import Idealize.ShloMosaic.Lib.ReduceAll
import Idealize.ShloMosaic.PureOps.Reduce

namespace Idealize.ShloMosaic

namespace IntOp

/-- A left fold by `and` from 1 over words that are all 1 is 1. -/
theorem foldl_andi_of_all_one {ι : Type} (f : ι → BitVec 1) :
    ∀ (l : List ι), (∀ n ∈ l, f n = 1#1) → l.foldl (fun r n => andi r (f n)) 1#1 = 1#1
  | [], _ => rfl
  | a :: l, h => by
    rw [List.foldl_cons, h a (List.mem_cons_self ..)]
    exact foldl_andi_of_all_one f l fun n hn => h n (List.mem_cons_of_mem _ hn)

/-- A comparison word is 0 or 1. -/
theorem cmpi_eq_zero_of_ne_one {w : Nat} (p : CmpIPredicate) (x y : BitVec w) (h : cmpi p x y ≠ 1#1) : cmpi p x y = 0#1 := by
  generalize cmpi p x y = c at h
  revert c; decide

end IntOp

namespace Host

variable {s t u : Shape} {axes : List (Fin s.rank)}

/-- A `stablehlo.reduce` by `and`, from an initial value of ones, of an array of ones is one at every result index. -/
theorem reduce_andi_of_all_one (x : s.Idx → BitVec 1) (init : u.Idx → BitVec 1) (h : s.ReducesTo axes t) (hu : 0 < u.numel)
    (j : t.Idx) (hinit : ∀ k, init k = 1#1) (hx : ∀ i, x i = 1#1) : Host.reduce IntOp.andi x init h hu j = 1#1 := by
  rw [Host.reduce_eq_foldl, hinit]
  exact IntOp.foldl_andi_of_all_one x _ fun n _ => hx n

end Host

/-- A selection by a mask that is 1 everywhere is its first branch. -/
theorem select_of_all_one {s : Shape} {α : Type} (c : IVec s 1) (a b : s.Idx → α) (hc : ∀ i, c i = 1#1) : select c a b = a := by
  funext i
  show Scalar.select (c i) (a i) (b i) = a i
  rw [hc i]; rfl

/-- A selection by a mask that is 1 nowhere is its second branch. -/
theorem select_of_all_not_one {s : Shape} {α : Type} (c : IVec s 1) (a b : s.Idx → α) (hc : ∀ i, c i ≠ 1#1) : select c a b = b := by
  funext i
  show Scalar.select (c i) (a i) (b i) = b i
  unfold Scalar.select
  exact if_neg (hc i)

end Idealize.ShloMosaic
-- ==== Proof.RefNll.lean ====
import proofs.«406967_j32916629357083_1_alg».proof.Proof.RefRead
import proofs.«406967_j32916629357083_1_alg».proof.Proof.Spec
import proofs.«406967_j32916629357083_1_alg».proof.Proof.OnlineLse
import proofs.«406967_j32916629357083_1_alg».proof.Proof.Consts
import proofs.«406967_j32916629357083_1_alg».proof.Proof.LibGatherRows
import proofs.«406967_j32916629357083_1_alg».proof.Proof.LibTakeFill
import proofs.«406967_j32916629357083_1_alg».proof.Proof.LibMaskAll
import Idealize.ShloMosaic.Lib.Pipeline.Value
import Idealize.ShloMosaic.Lib.ValueIdx
import Idealize.ShloMosaic.Lib.ValueLayout
import Idealize.ShloMosaic.PureOps.Ideal.Laws

/-! # The reference's negative log-likelihood of a row

With real features and a real table the reference's scaled similarities are the reals `logit x w r p`; its
`log_softmax` subtracts the row maximum (a real) and the logarithm of the shifted exponentials' sum, which is
`logit x w r p − lse (logit x w r)` whatever the shift; its `take_along_axis` reads that at the row's class when the class
word, wrapped, is in range — the range test passes and the gather's clamp does nothing —, and the negation gives
`lse (logit x w r) − logit x w r p`. -/

noncomputable section

namespace Cert.ReferenceIdeal.Nll

open Idealize.ShloMosaic Idealize.ShloMosaic.ValueIdx Cert.ReferenceIdeal Cert.ReferenceIdeal.Gen Cert.ReferenceIdeal.ReadP Cert.Oim

/-! ## The index maps of the stages, at a row -/

theorem lidx13 (r : Fin 4096) (p : Fin 15000) (k : Fin 256) : lidx_main_v13 (ix2 r p) k = ix2 r k :=
  funext fun a => Fin.ext (by match a with | ⟨0, _⟩ => rfl | ⟨1, _⟩ => rfl)

theorem ridx13 (r : Fin 4096) (p : Fin 15000) (k : Fin 256) : idx_main_v12 (ridx_main_v13 (ix2 r p) k) = ix2 p k :=
  funext fun a => Fin.ext (by match a with | ⟨0, _⟩ => rfl | ⟨1, _⟩ => rfl)

theorem idx_c1v3 (r : Fin 4096) (u : Fin 1) : idx_main_call1_v3 (ix2 r u) = ix1 r :=
  funext fun a => Fin.ext (by match a with | ⟨0, _⟩ => rfl)

theorem idx_c1v4 (r : Fin 4096) (p : Fin 15000) : idx_main_call1_v4 (ix2 r p) = ix2 r (0 : Fin 1) :=
  funext fun a => Fin.ext (by match a with | ⟨0, _⟩ => rfl | ⟨1, _⟩ => rfl)

theorem idx_c1v7 (r : Fin 4096) (k : Fin 15000) : idx_main_call1_v7 (ix1 r) k = ix2 r k :=
  funext fun a => Fin.ext (by match a with | ⟨0, _⟩ => rfl | ⟨1, _⟩ => rfl)

theorem idx_c1v8 (r : Fin 4096) (u : Fin 1) : idx_main_call1_v8 (ix2 r u) = ix1 r :=
  funext fun a => Fin.ext (by match a with | ⟨0, _⟩ => rfl)

theorem idx_c1v10 (r : Fin 4096) (p : Fin 15000) : idx_main_call1_v10 (ix2 r p) = ix2 r (0 : Fin 1) :=
  funext fun a => Fin.ext (by match a with | ⟨0, _⟩ => rfl | ⟨1, _⟩ => rfl)

theorem idx_v17 (r : Fin 4096) (u : Fin 1) : idx_main_v17 (ix2 r u) = ix1 r :=
  funext fun a => Fin.ext (by match a with | ⟨0, _⟩ => rfl)

theorem idx_c2v5 (r : Fin 4096) : idx_main_call2_v5 (ix3 r (0 : Fin 1) (0 : Fin 1)) = ix2 r (0 : Fin 1) :=
  funext fun a => Fin.ext (by
    match a with
    | ⟨0, _⟩ => show ((r.val * 1 + 0) * 1 + 0) / 1 = r.val; omega
    | ⟨1, _⟩ => rfl)

theorem idx_v19 (r : Fin 4096) : idx_main_v19 (ix1 r) = ix2 r (0 : Fin 1) :=
  funext fun a => Fin.ext (by
    match a with
    | ⟨0, _⟩ => show r.val / 1 = r.val; omega
    | ⟨1, _⟩ => rfl)

/-- Over row `r` of the reduced shape, the source index with coordinate `p` on the dropped axis is `(r, p)`. -/
theorem lift_row (h : S4096x15000.Reduces [1] S4096) (r : Fin 4096) (p : Fin 15000) : h.lift (ix1 r) p = ix2 r p :=
  funext fun c => Fin.ext (by match c with | ⟨0, _⟩ => rfl | ⟨1, _⟩ => rfl)

/-- Over `(r, 0)` of the reduced shape, the one source index is `(r, 0, 0)`. -/
theorem lift_unit (h : S4096x1x1.Reduces [2] S4096x1) (r : Fin 4096) (k : Fin 1) :
    h.lift (ix2 r (0 : Fin 1)) k = ix3 r (0 : Fin 1) (0 : Fin 1) :=
  funext fun c => Fin.ext (by
    match c with
    | ⟨0, _⟩ => rfl
    | ⟨1, _⟩ => rfl
    | ⟨2, _⟩ => show k.val = 0; omega)

variable (x0 : (⟨S4096x256, .f32⟩ : BufTy).Contents (Elt Ideal)) (x3 : (⟨S15000x256, .f32⟩ : BufTy).Contents (Elt Ideal))
  (xr : SX.Idx → ℝ) (wr : SW.Idx → ℝ)
  (hx : ∀ j, x0 j = ((xr j : ℝ) : EReal)) (hw : ∀ j, x3 j = ((wr j : ℝ) : EReal))

include hx hw

/-- The scaled similarities: the product with the transposed table, times 30. -/
theorem logits_apply (r : Fin 4096) (p : Fin 15000) :
    val_main_v15 (F := Ideal) x0 x3 (ix2 r p) = ((logit xr wr r p : ℝ) : EReal) := by
  rw [val_main_v15_apply, val_main_v13_apply, val_main_v14_apply, val_main_cst_apply, Ideal.mulf_def, Ideal.ofBits_def,
    ofBits_thirty]
  unfold logit
  rw [EReal.coe_mul, coe_sum]
  congr 1
  refine Finset.sum_congr rfl fun k _ => ?_
  rw [val_main_v12_apply, lidx13, ridx13, hx, hw, EReal.coe_mul]

/-- The row's maximum, as the reference takes it: a fold of `max` from `-∞` over the row's similarities. -/
theorem rowMax_apply (r : Fin 4096) :
    val_main_call1_v0 (F := Ideal) x0 x3 (ix1 r)
      = (Finset.univ : Finset (Fin 15000)).fold max (⊥ : EReal) (fun p => ((logit xr wr r p : ℝ) : EReal)) := by
  have hR : S4096x15000.Reduces [1] S4096 := by decide
  unfold val_main_call1_v0
  refine (Host.reduce_eq_fold_single FloatOps.maximumf _ _ reducesTo_S4096x15000_S4096_d1 hR h_S_ (ix1 r)).trans ?_
  show (Finset.univ : Finset (Fin 15000)).fold max (Ideal.ofBits .f32 0xFF800000#32)
      (fun p : Fin 15000 => val_main_v15 (F := Ideal) x0 x3 (hR.lift (ix1 r) p)) = _
  have hf : (fun p : Fin 15000 => val_main_v15 (F := Ideal) x0 x3 (hR.lift (ix1 r) p))
      = fun p : Fin 15000 => ((logit xr wr r p : ℝ) : EReal) :=
    funext fun p => (congrArg (val_main_v15 (F := Ideal) x0 x3) (lift_row hR r p)).trans (logits_apply x0 x3 xr wr hx hw r p)
  rw [hf, ofBits_negInf]

/-- The maximum `log_softmax` subtracts is a real. -/
theorem rowMax_real (r : Fin 4096) : ∃ M : ℝ, val_main_call1_v2 (F := Ideal) x0 x3 (ix1 r) = ((M : ℝ) : EReal) := by
  obtain ⟨M, hM⟩ := fold_max_real (n := 15000) (by norm_num) (fun p => logit xr wr r p) ⊥ (Or.inl rfl)
  refine ⟨M, ?_⟩
  rw [val_main_call1_v2_apply, val_main_call1_v1_apply, val_main_call1_cst_0_apply, Ideal.maximumf_def, Ideal.ofBits_def,
    ofBits_negInf, rowMax_apply x0 x3 xr wr hx hw, hM]
  exact max_eq_right bot_le

/-- The shifted similarities. -/
theorem shifted_apply (r : Fin 4096) (p : Fin 15000) (M : ℝ)
    (hM : val_main_call1_v2 (F := Ideal) x0 x3 (ix1 r) = ((M : ℝ) : EReal)) :
    val_main_call1_v5 (F := Ideal) x0 x3 (ix2 r p) = ((logit xr wr r p - M : ℝ) : EReal) := by
  rw [val_main_call1_v5_apply, val_main_call1_v4_apply, idx_c1v4, val_main_call1_v3_apply, idx_c1v3, hM,
    logits_apply x0 x3 xr wr hx hw, Ideal.subf_def, ← EReal.coe_sub]

/-- The sum of the shifted exponentials over the row. -/
theorem expSum_apply (r : Fin 4096) (M : ℝ) (hM : val_main_call1_v2 (F := Ideal) x0 x3 (ix1 r) = ((M : ℝ) : EReal)) :
    val_main_call1_v7 (F := Ideal) x0 x3 (ix1 r) = ((∑ q : Fin 15000, Real.exp (logit xr wr r q - M) : ℝ) : EReal) := by
  rw [val_main_call1_v7_apply, val_main_call1_cst_1_apply, Ideal.ofBits_def, ofBits_zero, zero_add, coe_sum]
  refine Finset.sum_congr rfl fun q _ => ?_
  rw [idx_c1v7, val_main_call1_v6_apply, shifted_apply x0 x3 xr wr hx hw r q M hM, Ideal.hostUnary_exp_def, Ideal.exp_coe]

/-- The logarithm of that sum, as broadcast back over the row. -/
theorem logSum_apply (r : Fin 4096) (p : Fin 15000) (M : ℝ)
    (hM : val_main_call1_v2 (F := Ideal) x0 x3 (ix1 r) = ((M : ℝ) : EReal)) :
    val_main_call1_v10 (F := Ideal) x0 x3 (ix2 r p)
      = ((Real.log (∑ q : Fin 15000, Real.exp (logit xr wr r q - M)) : ℝ) : EReal) := by
  have hpos : 0 < ∑ q : Fin 15000, Real.exp (logit xr wr r q - M) :=
    Finset.sum_pos (fun q _ => Real.exp_pos _) Finset.univ_nonempty
  rw [val_main_call1_v10_apply, idx_c1v10, val_main_call1_v9_apply, val_main_call1_v8_apply, idx_c1v8,
    expSum_apply x0 x3 xr wr hx hw r M hM, Ideal.hostUnary_log_def, Ideal.log_coe, if_neg (not_le.2 hpos)]

/-- The `log_softmax` of a row: the similarity minus the row's log-sum-exp. -/
theorem logSoftmax_apply (r : Fin 4096) (p : Fin 15000) :
    val_main_v16 (F := Ideal) x0 x3 (ix2 r p) = ((logit xr wr r p - lse (logit xr wr r) : ℝ) : EReal) := by
  obtain ⟨M, hM⟩ := rowMax_real x0 x3 xr wr hx hw r
  rw [val_main_v16_apply, shifted_apply x0 x3 xr wr hx hw r p M hM, logSum_apply x0 x3 xr wr hx hw r p M hM,
    Ideal.subf_def, ← EReal.coe_sub]
  have h := shift_lse (logit xr wr r) M
  have e : logit xr wr r p - M - Real.log (∑ q : Fin 15000, Real.exp (logit xr wr r q - M))
      = logit xr wr r p - lse (logit xr wr r) := by linarith
  rw [e]

omit hx hw in
/-- The start index `take_along_axis` gathers with, at row `r`: the row's class word, wrapped. -/
theorem start_apply (x1 : (⟨S4096, .i32⟩ : BufTy).Contents (Elt Ideal)) (x2 : (⟨S15000, .i32⟩ : BufTy).Contents (Elt Ideal)) (r : Fin 4096) :
    val_main_call2_v5 (F := Ideal) x1 x2 (ix3 r (0 : Fin 1) (0 : Fin 1))
      = TakeFill.wrapWord 15000#32 (val_main_v11 (F := Ideal) x1 x2 (ix1 r)) := by
  rw [val_main_call2_v5_apply, idx_c2v5, val_main_call2_v4_apply, val_main_call2_v1_apply, val_main_call2_v3_apply,
    val_main_call2_v0_apply, val_main_call2_c_apply, val_main_call2_v2_apply, val_main_call2_c_0_apply, val_main_v17_apply,
    idx_v17]
  rfl

omit hx hw in
/-- The range test of `take_along_axis` passes at a row whose wrapped class word is a class number. -/
theorem inRange_apply (x1 : (⟨S4096, .i32⟩ : BufTy).Contents (Elt Ideal)) (x2 : (⟨S15000, .i32⟩ : BufTy).Contents (Elt Ideal)) (r : Fin 4096)
    (p : Fin 15000) (hp : (TakeFill.wrapWord 15000#32 (val_main_v11 (F := Ideal) x1 x2 (ix1 r))).toInt = (p.val : Int)) :
    val_main_call2_v12 (F := Ideal) x1 x2 (ix2 r (0 : Fin 1)) = 1#1 := by
  have hR : S4096x1x1.Reduces [2] S4096x1 := by decide
  have hplt : (p.val : Int) < 15000 := by exact_mod_cast p.isLt
  -- the test at the row's one start index: both comparisons hold
  have h11 : val_main_call2_v11 (F := Ideal) x1 x2 (ix3 r (0 : Fin 1) (0 : Fin 1)) = 1#1 := by
    rw [val_main_call2_v11_apply, val_main_call2_v7_apply, val_main_call2_v10_apply, val_main_call2_v6_apply,
      val_main_call2_c_2_apply, val_main_call2_v9_apply, val_main_call2_v8_apply, val_main_call2_c_1_apply, start_apply]
    refine IntOp.andi_eq_one.2 ⟨IntOp.cmpi_sge.2 ?_, IntOp.cmpi_sle.2 ?_⟩
    · rw [hp]; show (0 : Int) ≤ (p.val : Int); omega
    · rw [hp]; show (p.val : Int) ≤ (14999#32 : BitVec 32).toInt
      have : (14999#32 : BitVec 32).toInt = 14999 := by decide
      omega
  unfold val_main_call2_v12
  refine (Host.reduce_eq_fold_single IntOp.andi _ _ reducesTo_S4096x1x1_S4096x1_d2 hR h_S_ (ix2 r (0 : Fin 1))).trans ?_
  show (Finset.univ : Finset (Fin 1)).fold IntOp.andi (1#1 : BitVec 1)
      (fun k : Fin 1 => val_main_call2_v11 (F := Ideal) x1 x2 (hR.lift (ix2 r (0 : Fin 1)) k)) = 1#1
  have hf : (fun k : Fin 1 => val_main_call2_v11 (F := Ideal) x1 x2 (hR.lift (ix2 r (0 : Fin 1)) k)) = fun _ => (1#1 : BitVec 1) :=
    funext fun k => (congrArg (val_main_call2_v11 (F := Ideal) x1 x2) (lift_unit hR r k)).trans h11
  rw [hf, Finset.univ_unique, Finset.fold_singleton]
  rfl

/-- Row `r` of the reference's negative log-likelihood. -/
theorem nll_apply (x1 : (⟨S4096, .i32⟩ : BufTy).Contents (Elt Ideal)) (x2 : (⟨S15000, .i32⟩ : BufTy).Contents (Elt Ideal)) (r : Fin 4096)
    (p : Fin 15000) (hp : (TakeFill.wrapWord 15000#32 (val_main_v11 (F := Ideal) x1 x2 (ix1 r))).toInt = (p.val : Int)) :
    val_main_v20 (F := Ideal) x0 x1 x2 x3 (ix1 r) = ((Cert.Oim.nll xr wr r p : ℝ) : EReal) := by
  have hs := start_apply x1 x2 r
  have h0 : 0 ≤ (val_main_call2_v5 (F := Ideal) x1 x2 (ix3 r (0 : Fin 1) (0 : Fin 1))).toInt := by
    rw [hs, hp]; omega
  have hlt : (val_main_call2_v5 (F := Ideal) x1 x2 (ix3 r (0 : Fin 1) (0 : Fin 1))).toInt < ((15000 : ℕ) : Int) := by
    rw [hs, hp]; exact_mod_cast p.isLt
  -- the gathered entry is the row's `log_softmax` at the class
  have hg : val_main_call2_v13 (F := Ideal) x0 x1 x2 x3 (ix2 r (0 : Fin 1))
      = ((logit xr wr r p - lse (logit xr wr r) : ℝ) : EReal) := by
    unfold val_main_call2_v13
    rw [Cert.GatherRows.gather_rows_apply_of_lt gather_S4096x15000_S4096x1x1_S4096x1_n_1_0_0_1_2_11 rfl rfl rfl rfl rfl rfl rfl
      (val_main_v16 (F := Ideal) x0 x3) (val_main_call2_v5 (F := Ideal) x1 x2) r (0 : Fin 1) h0 hlt]
    have hcol : (⟨(val_main_call2_v5 (F := Ideal) x1 x2 (ix3 r (0 : Fin 1) (0 : Fin 1))).toInt.toNat, by omega⟩ : Fin 15000) = p :=
      Fin.ext (by show (val_main_call2_v5 (F := Ideal) x1 x2 (ix3 r (0 : Fin 1) (0 : Fin 1))).toInt.toNat = p.val; rw [hs, hp]; exact Int.toNat_natCast _)
    rw [hcol, logSoftmax_apply x0 x3 xr wr hx hw r p]
  rw [val_main_v20_apply, val_main_v19_apply, idx_v19, val_main_v18_apply, inRange_apply x1 x2 r p hp, select_one, hg,
    Ideal.hostNegf_def, Ideal.negf_def, ← EReal.coe_neg]
  unfold Cert.Oim.nll
  rw [neg_sub]

end Cert.ReferenceIdeal.Nll

end
-- ==== Proof.PreFacts.lean ====
import proofs.«406967_j32916629357083_1_alg».proof.Proof.Gen.Pre_finite_inputs
import proofs.«406967_j32916629357083_1_alg».proof.Proof.LibTakeFill
import Idealize.ShloMosaic.Lib.ReduceAll
import Idealize.ShloMosaic.Lib.StableHlo.Predicate
import Idealize.ShloMosaic.PureOps.Ideal
import Idealize.ShloMosaic.PureOps.Ideal.Laws

/-! # What the precondition says, entry by entry

The precondition is a conjunction of four `jnp.all`s: every feature entry and every table entry has absolute value below
`+∞` — it is a real number —, and every word of the label buffer, read signed, lies in `[-15000, 15000)`, the range in
which NumPy indexing of an axis of extent 15000 is defined. A word in that range wraps (`v + 15000` when negative) to
a class number in `[0, 15000)`. -/

noncomputable section

namespace Cert.Oim

open Idealize.ShloMosaic Cert.Pre_finite_inputs

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The shape of a scalar has one index. -/
instance subsingleton_scalar_idx : Subsingleton S_.Idx := ⟨fun a b => funext fun d => d.elim0⟩

/-- The pattern `0x7F800000` denotes `+∞`. -/
theorem ofBits_inf : Ideal.ofBits .f32 0x7F800000#32 = (⊤ : EReal) := by
  simp [Ideal.ofBits, Ideal.ieee]

/-- One entry of the printed test `|x| < +∞` that came out 1 is a real number. -/
theorem real_of_test (x : EReal) (h : Ideal.cmp .olt (max x (-x)) (Ideal.ofBits .f32 0x7F800000#32) = 1#1) :
    ∃ r : ℝ, x = (r : EReal) := by
  rw [ofBits_inf] at h
  exact real_of_abs_lt_top x (of_decide_eq_true ((StableHlo.Predicate.ofBool_eq_one_iff _).1 h))

/-- The two printed bounds, read signed. -/
theorem toInt_lo : (4294952296#32 : BitVec 32).toInt = -15000 := by decide
theorem toInt_hi : (15000#32 : BitVec 32).toInt = 15000 := by decide

/-- The precondition, decoded: the float inputs are arrays of reals and every label word is in `[-15000, 15000)`. -/
theorem of_pre (a0 : FVec Ideal S4096x256 .f32) (a1 : IVec S4096 32) (a2 : IVec S15000 32) (a3 : FVec Ideal S15000x256 .f32)
    (h : Cert.Pre_finite_inputs.fn (F := Ideal) a0 a1 a2 a3 = fun _ => 1#1) :
    (∀ i, ∃ r : ℝ, (a0 i : EReal) = (r : EReal)) ∧ (∀ i, ∃ r : ℝ, (a3 i : EReal) = (r : EReal))
      ∧ (∀ i, (-15000 : Int) ≤ (a2 i).toInt ∧ (a2 i).toInt < 15000) := by
  -- the result at its one index is the conjunction of the four reductions
  have h0 := congrFun h ValueIdx.ix0
  dsimp only [Cert.Pre_finite_inputs.fn, Cert.Pre_finite_inputs.fn_part1] at h0
  simp only [andi] at h0
  rw [IntOp.andi_eq_one, IntOp.andi_eq_one, IntOp.andi_eq_one] at h0
  obtain ⟨⟨⟨hA, hB⟩, hC⟩, hD⟩ := h0
  -- each reduction by `and` that is 1 had a 1 at every entry; an entry's comparison is then read back
  refine ⟨fun i => ?_, fun i => ?_, fun i => ⟨?_, ?_⟩⟩
  · exact real_of_test (a0 i) (Host.reduce_andi_all _ _ _ _ _ hA i)
  · exact real_of_test (a3 i) (Host.reduce_andi_all _ _ _ _ _ hB i)
  · have := IntOp.cmpi_sge.1 (Host.reduce_andi_all _ _ _ _ _ hC i)
    rw [← toInt_lo]; exact this
  · have := IntOp.cmpi_slt.1 (Host.reduce_andi_all _ _ _ _ _ hD i)
    rw [← toInt_hi]; exact this

/-- A label word in `[-15000, 15000)`, wrapped, is the number of a class. -/
theorem wrap_class (v : BitVec 32) (h1 : (-15000 : Int) ≤ v.toInt) (h2 : v.toInt < 15000) :
    ∃ p : Fin 15000, (TakeFill.wrapWord 15000#32 v).toInt = (p.val : Int) := by
  obtain ⟨hlo, hhi⟩ := TakeFill.wrapWord_range 15000 (by norm_num) v (by omega) (by omega)
  refine ⟨⟨(TakeFill.wrapWord 15000#32 v).toInt.toNat, by omega⟩, ?_⟩
  exact (Int.toNat_of_nonneg hlo).symm

end Cert.Oim

end
-- ==== Proof.Bridge.lean ====
import proofs.«406967_j32916629357083_1_alg».proof.Proof.KerRun
import proofs.«406967_j32916629357083_1_alg».proof.Proof.KerFinal
import proofs.«406967_j32916629357083_1_alg».proof.Proof.KerHost
import proofs.«406967_j32916629357083_1_alg».proof.Proof.RefNll
import proofs.«406967_j32916629357083_1_alg».proof.Proof.PreFacts

/-! # The two programs' results are one number

Under the precondition the features and the table are arrays of reals and every label word is in `[-15000, 15000)`, so
every row's class word wraps to a class number `p`. The kernel's row value `lse − 30 ⟨x, w_p⟩` (the region's log-sum-exp
column, the host's row gather) and the reference's `−log_softmax(logits)[p]` are then the same real,
`lse (logit x w r) − logit x w r p`, row by row; the mask, the sum over the kept rows and the division are the same host
operations in both programs, applied to equal arrays. -/

set_option maxRecDepth 16384

noncomputable section

open Idealize.ShloMosaic Idealize.ShloMosaic.TcCoe Idealize.SL.Sem Idealize.ShloMosaic.ValueIdx

namespace Cert.Bridge

open Cert.Oim

/-- Both programs find the same class for each row: the same host operations of the two integer arguments. -/
theorem label_eq (x1 : IVec Cert.KernelIdeal.S4096 32) (x2 : IVec Cert.KernelIdeal.S15000 32) :
    Cert.KernelIdeal.Tail.label x1 x2 = Cert.ReferenceIdeal.ReadP.val_main_v11 (F := Ideal) x1 x2 := rfl

/-- Each row's class is an entry of the label buffer. -/
theorem label_mem (x1 : IVec Cert.KernelIdeal.S4096 32) (x2 : IVec Cert.KernelIdeal.S15000 32) (i : Cert.KernelIdeal.S4096.Idx) :
    ∃ j, Cert.KernelIdeal.Tail.label x1 x2 i = x2 j := ⟨_, rfl⟩

/-- The reference's result is the kernel's masked mean of the reference's own row values. -/
theorem ref_result (x0 : FVec Ideal Cert.KernelIdeal.S4096x256 .f32) (x1 : IVec Cert.KernelIdeal.S4096 32) (x2 : IVec Cert.KernelIdeal.S15000 32)
    (x3 : FVec Ideal Cert.KernelIdeal.S15000x256 .f32) :
    Cert.ReferenceIdeal.ReadP.val_main_v30 (F := Ideal) x0 x1 x2 x3
      = Cert.KernelIdeal.Tail.loss (F := Ideal) (Cert.KernelIdeal.Tail.mask x1 (Cert.KernelIdeal.Tail.label x1 x2)) (Cert.ReferenceIdeal.ReadP.val_main_v20 (F := Ideal) x0 x1 x2 x3) := rfl

variable (m : (ℓ : Loc Cert.KernelIdeal.nD Cert.KernelIdeal.τ Cert.KernelIdeal.sig) → Buf (Elt Ideal) ℓ)

/-- THE BRIDGE: under the precondition the kernel program's result is the reference's result term of the same arguments. -/
theorem result_eq (c : Dev Cert.KernelIdeal.nD)
    (hpre : Cert.Pre_finite_inputs.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = fun _ => 1#1) :
    Cert.KernelIdeal.Run.result m c = Cert.ReferenceIdeal.ReadP.val_main_v30 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) := by
  obtain ⟨h0, h3, hl⟩ := of_pre _ _ _ _ hpre
  choose xr hx using h0
  choose wr hw using h3
  rw [ref_result]
  unfold Cert.KernelIdeal.Run.result
  rw [Cert.KernelIdeal.Final.final m xr wr c hx hw]
  refine congrArg _ (funext fun i => ?_)
  obtain ⟨r, rfl⟩ : ∃ r : Fin 4096, i = ix1 r := ⟨i 0, eq_ix1 i⟩
  obtain ⟨j, hj⟩ := label_mem (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (ix1 r)
  obtain ⟨p, hp⟩ := wrap_class _ (hj ▸ (hl j).1) (hj ▸ (hl j).2)
  rw [Cert.KernelIdeal.Host.nll_apply _ _ _ _ xr wr hx hw r rfl p hp]
  exact (Cert.ReferenceIdeal.Nll.nll_apply _ _ xr wr hx hw _ _ r p hp).symm

end Cert.Bridge

end
-- ==== Proof.lean ====
/- The proof of `Cert.Claim`: the three frames, `preserves` and `algebraic`.

   The kernel computes each row's log-sum-exp of the 15000 scaled similarities tile by tile (a running maximum and a running
   sum of shifted exponentials over fifteen tiles of a thousand classes), and on the host subtracts the row's class
   similarity, read by a row gather of the table; the reference takes `log_softmax` of the whole similarity matrix and reads
   the class entry by `take_along_axis`. Over the extended reals, with real inputs and every label word in
   `[-15000, 15000)`, both row values are `lse (logit x w r) − logit x w r p`; the masked mean that follows is the same host
   computation in both programs. The kernel frames are the generated ones; the reference's frame is its run with the
   result dropped; the ideal pass rewrote nothing, so `preserves` is trivial. -/
import proofs.«406967_j32916629357083_1_alg».proof.Defs
import proofs.«406967_j32916629357083_1_alg».proof.Proof.Gen.Kernel
import proofs.«406967_j32916629357083_1_alg».proof.Proof.Gen.Kernel.Skeleton
import proofs.«406967_j32916629357083_1_alg».proof.Proof.Gen.Kernel.Launch
import proofs.«406967_j32916629357083_1_alg».proof.Proof.Gen.Kernel.Points
import proofs.«406967_j32916629357083_1_alg».proof.Proof.Gen.Kernel.Frame
import proofs.«406967_j32916629357083_1_alg».proof.Proof.Gen.KernelIdeal
import proofs.«406967_j32916629357083_1_alg».proof.Proof.Gen.KernelIdeal.Skeleton
import proofs.«406967_j32916629357083_1_alg».proof.Proof.Gen.KernelIdeal.Launch
import proofs.«406967_j32916629357083_1_alg».proof.Proof.Gen.KernelIdeal.Points
import proofs.«406967_j32916629357083_1_alg».proof.Proof.Gen.KernelIdeal.Frame
import proofs.«406967_j32916629357083_1_alg».proof.Proof.Gen.ReferenceIdeal
import proofs.«406967_j32916629357083_1_alg».proof.Proof.Gen.Pre_finite_inputs
import Idealize.ShloMosaic.Adequacy
import Idealize.ShloMosaic.Init
import proofs.«406967_j32916629357083_1_alg».proof.Proof.Bridge

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs run, and end with equal results: the kernel's result term, which under the precondition is the
    reference's result term of the same arguments. -/
theorem algebraic : Cert.algebraic_KernelIdeal_ReferenceIdeal := by
  intro m ρ m' ρ' hpre hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v30_eq, (hagree c).1, (hagree c).2.1, (hagree c).2.2.1, (hagree c).2.2.2]
  exact (Cert.Bridge.result_eq m c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
